-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S128x256 : Shape := ⟨2, ![128, 256]⟩
abbrev S128x1 : Shape := ⟨2, ![128, 1]⟩
abbrev S128x8192 : Shape := ⟨2, ![128, 8192]⟩
abbrev S128 : Shape := ⟨1, ![128]⟩

abbrev nBuf : Space → Nat
  | .hbm => 28
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  natLt_1_32 : 1 < 32
  reducesTo_S8192x1_S_d0_1 : S8192x1.ReducesTo [0, 1] S_
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .bf16 = 32 ∨ (Rect.block (s := S8192x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_v8) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .i1⟩
  | .hbm, ⟨57, _⟩ => ⟨S8192x8192, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_call2_cst : Ref sig .tc := ⟨.hbm, 47, rfl⟩
abbrev main_call2_v0 : Ref sig .tc := ⟨.hbm, 48, rfl⟩
abbrev main_v33 : Ref sig .tc := ⟨.hbm, 49, rfl⟩
abbrev main_cst_6 : Ref sig .tc := ⟨.hbm, 50, rfl⟩
abbrev main_call3_v0 : Ref sig .tc := ⟨.hbm, 51, rfl⟩
abbrev main_call3_v1 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_call4_v0 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  natLt_1_32 : 1 < 32
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrameB1.lean ====
/-
  The frame run of the kernel's program as printed (at the word-level values), at any float values.

  @main is a stretch of host operations (the rows of the first argument normalised, the labels reshaped twice), ONE kernel
  region on a grid of 64 points, and a closing stretch (two sums, a compare, a maximum, a quotient, a select).  The region has
  four input windows — a 128-row tile of the normalised matrix and the whole matrix (BOTH on the one array that holds it), the
  tile's 128 labels as a column and all labels as a row — and two output windows of 128 rows by 1, written back at every
  point.  The body loads the four input blocks whole, loads and then overwrites both output blocks whole; so each output's
  staging buffer ends at one store's payload, a pure function of the four input blocks and the grid point.

  Because two windows share an array, that array is held by each at half the share; the run is the launch for windows
  sharing arrays (LibSharedFrame), whose conclusion names the final contents of every buffer that is no window's array:
  the closing stretch's operations applied to the region-exit contents, where the two outputs hold what the write-backs of
  all 64 points left.
-/
import proofs.«144402_j40114994544729_1_alg».proof.Proof.Gen.Kernel.Launch
import proofs.«144402_j40114994544729_1_alg».proof.Proof.Gen.Kernel.Skeleton
import proofs.«144402_j40114994544729_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the opening stretch. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The closing stretch, as the two lists @main's text splits it in. -/
abbrev tailOps : List (List (HloOp τ sig (Elt F))) := [hostOps1, hostOps1_1]

/-- @main reduces to the region continued by the closing stretch, at the contents after the opening one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] [hostOps1, hostOps1_1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole buffer -/

abbrev rA : Rect S128x256 := Rect.unit (s := S128x256) ![0, 0] S128x256.size inb_S128x256_S128x256_0_0
abbrev rB : Rect S8192x256 := Rect.unit (s := S8192x256) ![0, 0] S8192x256.size inb_S8192x256_S8192x256_0_0
abbrev rC : Rect S128x1 := Rect.unit (s := S128x1) ![0, 0] S128x1.size inb_S128x1_S128x1_0_0
abbrev rD : Rect S1x8192 := Rect.unit (s := S1x8192) ![0, 0] S1x8192.size inb_S1x8192_S1x8192_0_0

/-- The loss tile at a point, from the four input blocks. -/
def tile (i : grid0.Coords) (x0 : Vec F S128x256 .bf16) (x1 : Vec F S8192x256 .bf16) (x2 : Vec F S128x1 .i32) (x3 : Vec F S1x8192 .i32) :
    FVec F S128x8192 .f32 :=
  k0_pay3 i (View.ld x0 rA) (View.ld x1 rB) (View.ld x2 rC) (View.ld x3 rD)

/-- The row-sum output's staging buffer after the body: its one store, of the tile's row sums. -/
def out0_4 (i : grid0.Coords) (x0 : Vec F S128x256 .bf16) (x1 : Vec F S8192x256 .bf16) (x2 : Vec F S128x1 .i32) (x3 : Vec F S1x8192 .i32) :
    Vec F S128x1 .f32 :=
  View.canon [⟨rC, k0_pay1 (tile i x0 x1 x2 x3)⟩]

/-- The row-count output's staging buffer after the body: its one store, of the tile's counts of positive entries. -/
def out0_5 (i : grid0.Coords) (x0 : Vec F S128x256 .bf16) (x1 : Vec F S8192x256 .bf16) (x2 : Vec F S128x1 .i32) (x3 : Vec F S1x8192 .i32) :
    Vec F S128x1 .f32 :=
  View.canon [⟨rC, k0_pay2 (tile i x0 x1 x2 x3) (Scalar.ofBits .f32 0x00000000#32)⟩]

/-- A whole-buffer store covers the buffer. -/
theorem coverC (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 4000000 in
/-- The kernel body on whole staging memrefs, the inputs' at read contents and the outputs' at anything, runs to the
    continuation holding the inputs' as they were and each output's at its one store. -/
theorem sound_kernel (c : Dev nD) (E : Set ℕ) (i : grid0.Coords)
    (arg1 : Memref sig .tc .vmem S128x256 .bf16) (harg1 : arg1.IsWhole) (arg2 : Memref sig .tc .vmem S8192x256 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S128x1 .f32) (harg6 : arg6.IsWhole)
    (x0 : Vec F S128x256 .bf16) (x1 : Vec F S8192x256 .bf16) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3) ∗ owns (c : Thread nD τ) arg6 fullShare (out0_5 i x0 x1 x2 x3)) -∗ K ⟨⟩))
      ⊢ wp frame (wpE (defs₀ (F := F)) Variants.none c none) E (cc0__triplet_kernel i arg1 harg1 arg2 harg2 arg3 harg3 arg4 harg4 arg5 harg5 arg6 harg6) K := by
  simp only [cc0__triplet_kernel_eq_skeleton]; unfold cc0__triplet_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  iexists _; isplitr
  swap; · iexact H5
  ipureintro
  exact View.read_writes_eq_canon _ _ _ (coverC _)

end Cert.Kernel.Fr

end
-- ==== Proof.FrameB2.lean ====
/-
  The proof data of the one pipeline, the body obligation at every point, and the run.

  After the body at point `t` each input window's staging buffer holds its block (the body only reads it) and each output's
  its one store over the four input blocks.  The array behind windows 0 and 1 is split between them at half the share
  each; every other array is held whole.  The closing stretch reads the two outputs and writes fresh buffers only.
-/
import proofs.«144402_j40114994544729_1_alg».proof.Proof.FrameB1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer at
    its block and each output's at its store over the input blocks; the invariant the scoped rest and the generator
    register, untouched; nothing owed; the shared array at half the share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = out0_4 (grid0.coords t) (iblk m c 0 t) (iblk m c 1 t) (iblk m c 2 t) (iblk m c 3 t) := by dsimp only [dats]
theorem after0_5 (c : Dev nD) (t : Fin cfg0.N) : (dats m 0 c).after 5 t
    = out0_5 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The region-exit contents the closing stretch runs from -/

/-- Core `c`'s buffer contents at the region's exit, as far as the closing stretch reads them: the two outputs at what the
    write-backs of all points left, every other buffer as the region found it. -/
def W1 (c : Dev nD) : Valuation τ sig (Elt F) :=
  Function.update (Function.update (V0 m c) (Proc.devRef .tc main_v11_0) ((dats m 0 c).arrAt 4 cfg0.N))
    (Proc.devRef .tc main_v11_1) ((dats m 0 c).arrAt 5 cfg0.N)

theorem W1_v11_1 (c : Dev nD) : W1 m c (Proc.devRef .tc main_v11_1) = (dats m 0 c).arrAt 5 cfg0.N :=
  Function.update_self ..
theorem W1_v11_0 (c : Dev nD) : W1 m c (Proc.devRef .tc main_v11_0) = (dats m 0 c).arrAt 4 cfg0.N :=
  (Function.update_of_ne (by decide) ..).trans (Function.update_self ..)
theorem W1_of_ne (c : Dev nD) (b : Ref sig .tc) (h0 : b ≠ main_v11_0) (h1 : b ≠ main_v11_1) :
    W1 m c (Proc.devRef .tc b) = V0 m c (Proc.devRef .tc b) :=
  (Function.update_of_ne (fun e => h1 (Proc.devRef_injective _ e)) ..).trans (Function.update_of_ne (fun e => h0 (Proc.devRef_injective _ e)) ..)

end Cert.Kernel.Fr

end
-- ==== Proof.LibSharedFrame.lean ====
/-
  A frame run around ONE kernel region whose INPUT windows may share an array.

  The library's frame run around a region (host lines, the region, host lines) asks that the windows' arrays be pairwise
  distinct and each held at the full share.  When one array is handed to the kernel through two input windows, the
  buffer behind it is split between the two windows' shares at the region's entry (`hsplit`, the caller's), the region
  runs from the proof data as usual, and the lines after the region run within the bypassing buffers and those arrays
  that belong to exactly one window at the full share (the windows of `T`: the outputs the lines read), writing none of
  those arrays.  The conclusion names every bypassing buffer's final contents: the lines' composition applied to the
  region-exit valuation `W₁`, which agrees with the region-entry contents off the arrays and with the proof data's final
  arrays on `T`.

  The arrays of the windows outside `T` — the shared inputs, each window holding its own share of one buffer — pass
  by the lines untouched (`tail_seqs_on`'s `R`) and are handed back to the region rule as they were.
-/
import Idealize.ShloMosaic.Lib.Pipeline.FrameSuffix

noncomputable section

namespace Idealize.ShloMosaic.Pipeline.Shared

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Pipeline Idealize.ShloMosaic.Rounds
open TcCoe

variable {nD : Nat} {τ : Topo} {sig : RefSig} {Val : EltTy → Type}

/-! ## The lines after the region, the windows' arrays shared or not -/

section Tail

variable {Ix : Type} [DecidableEq Ix] {Name : Type} [DecidableEq Name] {U : Type} [URA U] {Lvl : Type}
variable {Λ₀ : SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers a line after the region may touch when windows may share arrays: the arrays of the windows of
    `T` (each the array of no other window) and the buffers that bypass the region. -/
abbrev tailRefsOn {gr : Nat} {W : Nat} (win : Fin W → WinSpec sig gr) (T : Finset (Fin W)) : Finset (DevRef τ sig) :=
  (T.image (arrRef win) ∪ restRefs sig win).map ⟨Proc.devRef (τ := τ) (sig := sig) .tc, Proc.devRef_injective _⟩

/-- The arrays of the windows of `T`, whole at the full share, at contents `A`. -/
def arrPtsOn {gr : Nat} {W : Nat} (win : Fin W → WinSpec sig gr) (T : Finset (Fin W)) (c : Dev nD)
    (A : (w : Fin W) → Buf Val ((win w).arr.view.loc (c.tc : Thread nD τ))) : sProp 𝕄 :=
  bigSep T fun w => ((c.tc : Thread nD τ).loc (arrRef win w)) ↦{fullShare} A w

/-- The buffers such a line may touch, held at `Wv`: the arrays of `T`'s windows — as many distinct buffers as windows,
    each being the array of no other window (`hT₁`) — and the bypassing buffers, at `Wv`. -/
theorem held_tailRefsOn {gr : Nat} {W : Nat} (win : Fin W → WinSpec sig gr) (T : Finset (Fin W))
    (hT₁ : ∀ w ∈ T, ∀ w', arrRef win w' = arrRef win w → w' = w) (c : Dev nD) (Wv : Valuation τ sig Val) :
    (StableHlo.held (c.tc : Thread nD τ) (tailRefsOn sig win T) Wv : sProp 𝕄)
      = iprop(arrPtsOn win T c (fun w => Wv (Proc.devRef .tc (arrRef win w)))
          ∗ unscopedRest win c (fun b => Wv (Proc.devRef .tc b))) := by
  classical
  -- no array is among the bypassing buffers
  have hdisj : Disjoint (T.image (arrRef win)) (restRefs sig win) :=
    Finset.disjoint_left.mpr fun b hb hr =>
      (Finset.mem_sdiff.mp hr).2 (Finset.image_subset_image (Finset.subset_univ T) hb)
  have hinj : Set.InjOn (arrRef win) (T : Set (Fin W)) := fun a _ b hb e => hT₁ b (Finset.mem_coe.mp hb) a e
  unfold StableHlo.held arrPtsOn unscopedRest
  rw [bigSep_map, bigSep_union hdisj, BI.bigSep_image_of_injOn hinj]
  rfl

omit [DecidableEq Ix] [DecidableEq Name] in
set_option backward.isDefEq.respectTransparency.types false in
/-- THE LINES AFTER THE REGION, for windows that may share arrays (the region rule's `htail` for
    `k := fun _ => chain (opss.map StableHlo.seq)`): from the region's exit — the boundary, the arrays of `T`'s windows at `A`,
    the bypassing buffers at `Wv`, where `Wv` names `A` on `T`'s arrays (`hA`) — the lines run within those arrays and the
    bypassing buffers (`hsub`), writing none of the arrays (`hkeep`), and hand back the arrays at `A` and the bypassing
    buffers at `StableHlo.after` of the lines from `Wv`. Whatever else is held (`R`: the shared arrays at their windows'
    shares) passes by untouched. -/
theorem tail_seqs_on [DecidableEq Ix] [DecidableEq Name] [Preorder Lvl] {gr : Nat} {W : Nat} (win : Fin W → WinSpec sig gr) (T : Finset (Fin W))
    (hT₁ : ∀ w ∈ T, ∀ w', arrRef win w' = arrRef win w → w' = w)
    (c : Dev nD) (Wv : Valuation τ sig Val) (A : (w : Fin W) → Buf Val ((win w).arr.view.loc (c.tc : Thread nD τ)))
    (hA : ∀ w ∈ T, Wv (Proc.devRef .tc (arrRef win w)) = A w)
    (opss : List (List (HloOp τ sig Val)))
    (hsub : ∀ ops ∈ opss, ∀ op ∈ ops, op.bufs ⊆ tailRefsOn sig win T)
    (hfresh : ∀ ops ∈ opss, ∀ op ∈ ops, op.fresh = ∅)
    (hkeep : ∀ ops ∈ opss, ∀ op ∈ ops, ∀ w ∈ T, Proc.devRef .tc (arrRef win w) ∉ op.writes)
    (R : sProp 𝕄) (Q' : PUnit → sProp 𝕄) :
    iprop((iprop(arrPtsOn win T c A ∗ R ∗ unscopedRest win c (fun b => StableHlo.after opss.flatten Wv (Proc.devRef .tc b))) -∗ Q' ⟨⟩)
        ∗ boundary (c.tc : Thread nD τ) ∗ arrPtsOn win T c A ∗ R ∗ unscopedRest win c (fun b => Wv (Proc.devRef .tc b)))
      ⊢ wp frame (wpE 𝔻 𝕍 (c.tc : Thread nD τ) none) Set.univ (chain (opss.map StableHlo.seq)) Q' := by
  classical
  have hW : (StableHlo.held (c.tc : Thread nD τ) (tailRefsOn sig win T) Wv : sProp 𝕄)
      = iprop(arrPtsOn win T c A ∗ unscopedRest win c (fun b => Wv (Proc.devRef .tc b))) := by
    rw [held_tailRefsOn win T hT₁]
    congr 1
    unfold arrPtsOn
    exact bigSep_congr fun w hw => by beta_reduce; rw [hA w hw]
  have hW' : (StableHlo.held (c.tc : Thread nD τ) (tailRefsOn sig win T) (StableHlo.after opss.flatten Wv) : sProp 𝕄)
      = iprop(arrPtsOn win T c A ∗ unscopedRest win c (fun b => StableHlo.after opss.flatten Wv (Proc.devRef .tc b))) := by
    rw [held_tailRefsOn win T hT₁]
    congr 1
    unfold arrPtsOn
    exact bigSep_congr fun w hw => by
      beta_reduce
      rw [StableHlo.after_of_forall_not_mem _ _ fun op hop => ?_, hA w hw]
      obtain ⟨ops, hops, hop⟩ := List.mem_flatten.mp hop
      exact hkeep ops hops op hop w hw
  rw [← List.append_nil (opss.map StableHlo.seq)]
  iintro ⟨Hk, Hb, HA, HR, HZ⟩
  iapply (wp_seqs_then pcs defs₀ 𝒱₀ c (tailRefsOn sig win T) [] opss hsub hfresh Wv) $$ [Hb HA HZ]
  · rw [hW]
    isplitl [Hb]; · iexact Hb
    isplitl [HA]; · iexact HA
    iexact HZ
  iintro Hb
  rw [chain_nil, wp_pure, hW']
  imodintro
  iapply Hk
  icases Hb with ⟨-, HA, HZ⟩
  isplitl [HA]; · iexact HA
  isplitl [HR]; · iexact HR
  iexact HZ

/-- The pipeline's `arrays` split at a set `T` of windows whose arrays are whole buffers (`harr`) held at the full share
    (`hT₂`): those arrays as plain points-tos of their buffers, and the other windows' arrays as they are. -/
theorem arrays_split_on {cfg : Cfg sig Λ₀} {c : Dev nD} (dat : Dat τ Val Ix Name U Lvl cfg c)
    (harr : ∀ w, (cfg.spec w).arr.IsWhole) (T : Finset (Fin cfg.W)) (hT₂ : ∀ w ∈ T, dat.share w = fullShare)
    (F : (w : Fin cfg.W) → Buf Val ((cfg.spec w).arr.view.loc (c.tc : Thread nD τ))) :
    (dat.arrays F : sProp 𝕄)
      = iprop(arrPtsOn cfg.spec T c F
          ∗ bigSep (Finset.univ \ T) fun w : Fin cfg.W =>
              (cfg.spec w).arr.view.loc (c.tc : Thread nD τ) ↦[(cfg.spec w).arr.view.set]{dat.share w} F w) := by
  classical
  unfold Dat.arrays arrPtsOn
  rw [BI.bigSep_sdiff_split (Finset.subset_univ T)]
  congr 1
  exact bigSep_congr fun w hw => by rw [(harr w).set_eq_univ, hT₂ w hw]

end Tail

variable {Λ₀ : SL.Sem.Labels} {P : Type} [Fintype P] [DecidableEq P] [∀ e, Nonempty (Val e)]

local notation "𝕄" => MT nD τ sig Unit Val ℕ (UR sig nD τ) ℕ

/-- THE FRAME RUN around one kernel region whose windows may SHARE ARRAYS, for an @main that continues after the region
    with the host lines `opss` (`hmain`: `hmain_around`). As `θ_run_frame_around`, but the windows' arrays need be neither
    distinct (`hw : WinFacts₀`) nor each held at the full share: the caller says how the distinct buffers behind the arrays,
    whole at the entry contents `V₀`, make the proof data's `arrays` at entry (`hsplit`: an array read through several
    input windows is split among their shares). The lines after the region run within the bypassing buffers and the arrays
    of the windows of `T` (`hsub`) — each the array of no other window (`hT₁`), held at the full share (`hT₂`): the
    outputs — and write none of those arrays (`hkeep`). `W₁` is the region-exit valuation: on `T`'s arrays the proof
    data's final contents (`hW₁a`), on the bypassing buffers the region-entry contents (`hW₁r`). The post names every
    bypassing buffer's final contents: the lines' `StableHlo.after` from `W₁`. -/
theorem θ_run_frame_around_shared
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (T : Finset (Fin (cfgs p).W))
    (hT₁ : ∀ w ∈ T, ∀ w', arrRef (cfgs p).spec w' = arrRef (cfgs p).spec w → w' = w)
    (hT₂ : ∀ c, ∀ w ∈ T, (dats p c).share w = fullShare)
    (W₁ : Dev nD → Valuation τ sig Val)
    (hW₁a : ∀ c, ∀ w ∈ T, W₁ c (Proc.devRef .tc (arrRef (cfgs p).spec w)) = (dats p c).arrAt w (cfgs p).N)
    (hW₁r : ∀ c, ∀ b ∈ restRefs sig (cfgs p).spec, W₁ c (Proc.devRef .tc b) = V₀ c (Proc.devRef .tc b))
    (hsub : ∀ ops ∈ opss, ∀ op ∈ ops, op.bufs ⊆
      ((T.image (arrRef (cfgs p).spec)) ∪ restRefs sig (cfgs p).spec).map ⟨Proc.devRef (τ := τ) (sig := sig) .tc, Proc.devRef_injective _⟩)
    (hfresh : ∀ ops ∈ opss, ∀ op ∈ ops, op.fresh = ∅)
    (hkeep : ∀ ops ∈ opss, ∀ op ∈ ops, ∀ w ∈ T, Proc.devRef .tc (arrRef (cfgs p).spec w) ∉ op.writes)
    (hΦ : ∀ c t, (dats p c).Φ t = ΦA (cfgs p).spec c) :
    θ_run (Pipeline.defs (fun q => Cfg.toPCfg (Val := Val) (cfgs q)) defs₀) (onTc main) (s₀ m g)
      (fun r => ∀ c : Dev nD, ∀ b ∈ restRefs sig (cfgs p).spec,
        r.2.mem ((c.tc : Thread nD τ).loc b) = StableHlo.after opss.flatten (W₁ c) (Proc.devRef .tc b)) := by
  classical
  -- the bypassing buffers at the region-entry contents are the same at the exit valuation
  have hZ : ∀ c, (unscopedRest (Ix := Unit) (Name := ℕ) (U := UR sig nD τ) (Lvl := ℕ) (cfgs p).spec c (fun b => V₀ c (Proc.devRef .tc b)) : sProp 𝕄)
      = unscopedRest (cfgs p).spec c (fun b => W₁ c (Proc.devRef .tc b)) := fun c => by
    unfold unscopedRest
    exact bigSep_congr fun b hb => by beta_reduce; rw [hW₁r c b hb]
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (W₁ c) (Proc.devRef .tc b)))
    (hX := fun c => by
      rw [unscopedRestP_none]
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' => by
      rw [arrays_split_on (dats p c) harr T (hT₂ c), hZ c]
      iintro ⟨Hk, Hb, ⟨HA, HC⟩, HZ⟩
      iapply (tail_seqs_on (fun q => (cfgs q).toPCfg (Val := Val)) defs₀ 𝒱₀ (cfgs p).spec T hT₁ c (W₁ c)
        (fun w => (dats p c).arrAt w (cfgs p).N) (hW₁a c) opss hsub hfresh hkeep _ Q')
      isplitl [Hk]
      · iintro ⟨HA, HC, HZ⟩
        iapply Hk
        isplitr [HZ]
        · isplitl [HA]; · iexact HA
          iexact HC
        iexact HZ
      isplitl [Hb]; · iexact Hb
      isplitl [HA]; · iexact HA
      isplitl [HC]; · iexact HC
      iexact HZ)
    (QY := fun c s => ∀ b ∈ restRefs sig (cfgs p).spec,
      s.mem ((c.tc : Thread nD τ).loc b) = StableHlo.after opss.flatten (W₁ c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (W₁ c) (Proc.devRef .tc b)) s')
      isplitl [HU] <;> iassumption)
    (hQ := fun s h c => (h c).2.2)

end Idealize.ShloMosaic.Pipeline.Shared

end
-- ==== Proof.FrameB3.lean ====
/-
  The run, and what it leaves in the buffers that are no window's array.

  The array behind the two embedding windows, whole at the full share at the region's entry, is split into the two halves
  the windows hold; the other arrays pass as they are.  The closing stretch touches only the two outputs and buffers that
  bypass the region, and writes neither output.  Hence every weakly fair execution of @main ends, with each bypassing
  buffer at the closing stretch's operations applied to the region-exit contents; the two argument arrays, which no
  operation writes, end as they began.
-/
import proofs.«144402_j40114994544729_1_alg».proof.Proof.FrameB2
import proofs.«144402_j40114994544729_1_alg».proof.Proof.LibSharedFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array split between its two windows -/

/-- The distinct buffers behind the six windows' arrays. -/
theorem arrImage : Finset.univ.image (Pipeline.arrRef spec0) = ([main_v8, main_v9, main_v10, main_v11_0, main_v11_1] : List (Ref sig .tc)).toFinset := by
  decide

/-- One window's array at a share, as the plain points-to of the buffer behind it. -/
theorem arr_pt (c : Dev nD) (w : Fin cfg0.W) (q : PosShare TreeShare) (Fv : Buf (Elt F) ((cfg0.win w).arr.view.loc (c.tc : Thread nD τ))) :
    (((cfg0.win w).arr.view.loc (c.tc : Thread nD τ)) ↦[(cfg0.win w).arr.view.set]{q} Fv : sProp 𝕄)
      = (((c.tc : Thread nD τ).loc (Pipeline.arrRef spec0 w)) ↦{q} Fv : sProp 𝕄) := by
  rw [(arr_whole0 w).set_eq_univ]

/-- At the region's entry the buffers behind the arrays, each whole, make the proof data's arrays: the embedding matrix's
    buffer is split in two halves, one for each of its windows. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v8) ↦{fullShare} Vv main_v8) ∗ (((c.tc : Thread nD τ).loc main_v9) ↦{fullShare} Vv main_v9)
          ∗ (((c.tc : Thread nD τ).loc main_v10) ↦{fullShare} Vv main_v10) ∗ (((c.tc : Thread nD τ).loc main_v11_0) ↦{fullShare} Vv main_v11_0)
          ∗ (((c.tc : Thread nD τ).loc main_v11_1) ↦{fullShare} Vv main_v11_1)) := by
  unfold Pipeline.arrBufs; exact bigSep_eq_bigSepL_of_eq _ arrImage (by decide) _

theorem arrAt_zero (c : Dev nD) (w : Fin cfg0.W) : (dats m 0 c).arrAt w 0 = V m c (Pipeline.arrRef spec0 w) := by
  show (dats m 0 c).A w = _
  exact A_eq m c w

theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_pos (by decide)]
theorem share_5 (c : Dev nD) : (dats m 0 c).share 5 = fullShare := by
  unfold Dat.share; rw [if_pos (by decide)]

theorem hsplit (c : Dev nD) :
    (Pipeline.arrBufs spec0 c (fun b => V0 m c (Proc.devRef .tc b)) : sProp 𝕄) ⊢ (dats m 0 c).arrays ((dats m 0 c).arrAt · 0) := by
  rw [arrBufs0_eq]
  unfold Dat.arrays
  rw [bigSep_W0]
  rw [arr_pt c 0, arr_pt c 1, arr_pt c 2, arr_pt c 3, arr_pt c 4, arr_pt c 5]
  rw [share_0, share_1, share_2, share_3, share_4, share_5]
  beta_reduce
  rw [arrAt_zero m c 0, arrAt_zero m c 1, arrAt_zero m c 2, arrAt_zero m c 3, arrAt_zero m c 4, arrAt_zero m c 5]
  iintro ⟨H8, H9, H10, H11, H12⟩
  ihave Hs := (pointsTo_share (PosShare.mem_left_op_right fullShare)).1 $$ H8
  icases Hs with ⟨H8l, H8r⟩
  isplitl [H8l]; · iexact H8l
  isplitl [H8r]; · iexact H8r
  isplitl [H9]; · iexact H9
  isplitl [H10]; · iexact H10
  isplitl [H11]; · iexact H11
  iexact H12

/-! ## The closing stretch's side conditions -/

/-- The windows whose arrays the closing stretch reads: the two outputs. Each is the array of no other window, held whole. -/
abbrev Tw : Finset (Fin cfg0.W) := {4, 5}

theorem hT₁ : ∀ w ∈ Tw, ∀ w' : Fin cfg0.W, Pipeline.arrRef spec0 w' = Pipeline.arrRef spec0 w → w' = w := by decide

theorem hT₂ (c : Dev nD) : ∀ w ∈ Tw, (dats m 0 c).share w = fullShare := by
  intro w hw
  simp only [Tw, Finset.mem_insert, Finset.mem_singleton] at hw
  rcases hw with rfl | rfl
  · exact share_4 m c
  · exact share_5 m c

theorem hW₁a (c : Dev nD) : ∀ w ∈ Tw, W1 m c (Proc.devRef .tc (Pipeline.arrRef spec0 w)) = (dats m 0 c).arrAt w cfg0.N := by
  intro w hw
  simp only [Tw, Finset.mem_insert, Finset.mem_singleton] at hw
  rcases hw with rfl | rfl
  · exact W1_v11_0 m c
  · exact W1_v11_1 m c

theorem hW₁r (c : Dev nD) : ∀ b ∈ Pipeline.restRefs sig spec0, W1 m c (Proc.devRef .tc b) = V0 m c (Proc.devRef .tc b) := by
  intro b hb
  refine W1_of_ne m c b ?_ ?_
  · rintro rfl; exact absurd hb (by decide)
  · rintro rfl; exact absurd hb (by decide)

/-- The buffers the closing stretch may touch: the two outputs' arrays and every buffer that is no window's array. -/
abbrev tailSet : Finset (DevRef τ sig) :=
  ((Tw.image (Pipeline.arrRef spec0)) ∪ Pipeline.restRefs sig spec0).map ⟨Proc.devRef (τ := τ) (sig := sig) .tc, Proc.devRef_injective _⟩

theorem hostOps1_in : (hostOps1 : List (HloOp τ sig (Elt F))).Forall fun op => op.bufs ⊆ tailSet := by
  simp only [List.Forall, hostOps1, StableHlo.nullary_bufs, StableHlo.binary_bufs]; repeat' constructor
  all_goals decide
theorem hostOps1_1_in : (hostOps1_1 : List (HloOp τ sig (Elt F))).Forall fun op => op.bufs ⊆ tailSet := by
  simp only [List.Forall, hostOps1_1]
  show ({Proc.devRef .tc main_v14, Proc.devRef .tc main_v16, Proc.devRef .tc main_cst_5, Proc.devRef .tc main_v17} : Finset (DevRef τ sig)) ⊆ tailSet
  decide

theorem tail_sub : ∀ ops ∈ (tailOps : List (List (HloOp τ sig (Elt F)))), ∀ op ∈ ops, op.bufs ⊆ tailSet := by
  intro ops hops op hop
  simp only [tailOps, List.mem_cons, List.mem_nil_iff, or_false] at hops
  rcases hops with rfl | rfl
  · exact (List.forall_iff_forall_mem.mp hostOps1_in) op hop
  · exact (List.forall_iff_forall_mem.mp hostOps1_1_in) op hop

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp hostOps1_fresh) op hop
  · exact (List.forall_iff_forall_mem.mp hostOps1_1_fresh) op hop

theorem hostOps1_keeps : (hostOps1 : List (HloOp τ sig (Elt F))).Forall fun op =>
    ∀ w ∈ Tw, Proc.devRef .tc (Pipeline.arrRef spec0 w) ∉ op.writes := by
  simp only [List.Forall, hostOps1, StableHlo.nullary_writes, StableHlo.binary_writes]; repeat' constructor
  all_goals decide
theorem hostOps1_1_keeps : (hostOps1_1 : List (HloOp τ sig (Elt F))).Forall fun op =>
    ∀ w ∈ Tw, Proc.devRef .tc (Pipeline.arrRef spec0 w) ∉ op.writes := by
  simp only [List.Forall, hostOps1_1]
  show ∀ w ∈ Tw, Proc.devRef .tc (Pipeline.arrRef spec0 w) ∉ ({Proc.devRef .tc main_v17} : Finset (DevRef τ sig))
  decide

theorem tail_keeps : ∀ ops ∈ (tailOps : List (List (HloOp τ sig (Elt F)))), ∀ op ∈ ops,
    ∀ w ∈ Tw, Proc.devRef .tc (Pipeline.arrRef spec0 w) ∉ op.writes := by
  intro ops hops op hop
  simp only [tailOps, List.mem_cons, List.mem_nil_iff, or_false] at hops
  rcases hops with rfl | rfl
  · exact (List.forall_iff_forall_mem.mp hostOps1_keeps) op hop
  · exact (List.forall_iff_forall_mem.mp hostOps1_1_keeps) op hop

/-! ## The run -/

set_option backward.isDefEq.respectTransparency.types false in
/-- For any float values, from any memory with zero counters: every weakly fair execution of @main terminates, and every
    buffer that is no window's array ends at the closing stretch's operations applied to the region-exit contents. -/
theorem run_main : θ_run defs (onTc (τ := τ) (main (F := F))) (s₀ m ρ)
    (fun r => ∀ c : Dev nD, ∀ b ∈ Pipeline.restRefs sig spec0,
      r.2.mem ((c.tc : Thread nD τ).loc b) = StableHlo.after (tailOps (F := F)).flatten (W1 m c) (Proc.devRef .tc b)) :=
  Pipeline.Shared.θ_run_frame_around_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := tailOps)
    (hmain := hmain m Variants.none) (hsplit := hsplit m) (T := Tw) (hT₁ := hT₁) (hT₂ := hT₂ m)
    (W₁ := W1 m) (hW₁a := hW₁a m) (hW₁r := hW₁r m)
    (hsub := tail_sub) (hfresh := tail_fresh) (hkeep := tail_keeps) (hΦ := fun _ _ => rfl)

/-! ## The argument arrays end as they began -/

/-- No operation of the opening stretch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Nor does one of the closing stretch. -/
theorem final_arg0 (c : Dev nD) :
    StableHlo.after (tailOps (F := F)).flatten (W1 m c) (Proc.devRef .tc main_arg0) = m ((c : Thread nD τ).loc main_arg0) := by
  rw [StableHlo.after_of_forall_not_mem (b := Proc.devRef .tc main_arg0) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    W1_of_ne m c main_arg0 (by decide) (by decide)]
  exact V_main_arg0 m c
theorem final_arg1 (c : Dev nD) :
    StableHlo.after (tailOps (F := F)).flatten (W1 m c) (Proc.devRef .tc main_arg1) = m ((c : Thread nD τ).loc main_arg1) := by
  rw [StableHlo.after_of_forall_not_mem (b := Proc.devRef .tc main_arg1) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    W1_of_ne m c main_arg1 (by decide) (by decide)]
  exact V_main_arg1 m c

/-- The frame: the program runs to the end and its two argument arrays end unchanged; with them, the result's contents. -/
theorem run_args : θ_run defs (onTc (τ := τ) (main (F := F))) ⟨m, fun _ => 0, ρ⟩ (fun r => ∀ c : Dev nD,
      r.2.mem ((c.tc : Thread nD τ).loc main_v17) = StableHlo.after (tailOps (F := F)).flatten (W1 m c) (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v17 (Pipeline.mem_restRefs_of main_v17 (by decide) (by decide)),
     (h c main_arg0 (Pipeline.mem_restRefs_of main_arg0 (by decide) (by decide))).trans (final_arg0 m c),
     (h c main_arg1 (Pipeline.mem_restRefs_of main_arg1 (by decide) (by decide))).trans (final_arg1 m c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_args m ρ)

end Cert.Kernel.Fr

end
-- ==== Proof.FrameI1.lean ====
/-
  The frame run of the idealized kernel's program, at any float values.

  @main is a stretch of host operations (the rows of the first argument normalised, the labels reshaped twice), ONE kernel
  region on a grid of 64 points, and a closing stretch (two sums, a compare, a maximum, a quotient, a select).  The region has
  four input windows — a 128-row tile of the normalised matrix and the whole matrix (BOTH on the one array that holds it), the
  tile's 128 labels as a column and all labels as a row — and two output windows of 128 rows by 1, written back at every
  point.  The body loads the four input blocks whole, loads and then overwrites both output blocks whole; so each output's
  staging buffer ends at one store's payload, a pure function of the four input blocks and the grid point.

  Because two windows share an array, that array is held by each at half the share; the run is the launch for windows
  sharing arrays (LibSharedFrame), whose conclusion names the final contents of every buffer that is no window's array:
  the closing stretch's operations applied to the region-exit contents, where the two outputs hold what the write-backs of
  all 64 points left.
-/
import proofs.«144402_j40114994544729_1_alg».proof.Proof.Gen.KernelIdeal.Launch
import proofs.«144402_j40114994544729_1_alg».proof.Proof.Gen.KernelIdeal.Skeleton
import proofs.«144402_j40114994544729_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the opening stretch. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The closing stretch, as the two lists @main's text splits it in. -/
abbrev tailOps : List (List (HloOp τ sig (Elt F))) := [hostOps1, hostOps1_1]

/-- @main reduces to the region continued by the closing stretch, at the contents after the opening one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] [hostOps1, hostOps1_1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole buffer -/

abbrev rA : Rect S128x256 := Rect.unit (s := S128x256) ![0, 0] S128x256.size inb_S128x256_S128x256_0_0
abbrev rB : Rect S8192x256 := Rect.unit (s := S8192x256) ![0, 0] S8192x256.size inb_S8192x256_S8192x256_0_0
abbrev rC : Rect S128x1 := Rect.unit (s := S128x1) ![0, 0] S128x1.size inb_S128x1_S128x1_0_0
abbrev rD : Rect S1x8192 := Rect.unit (s := S1x8192) ![0, 0] S1x8192.size inb_S1x8192_S1x8192_0_0

/-- The loss tile at a point, from the four input blocks. -/
def tile (i : grid0.Coords) (x0 : Vec F S128x256 .bf16) (x1 : Vec F S8192x256 .bf16) (x2 : Vec F S128x1 .i32) (x3 : Vec F S1x8192 .i32) :
    FVec F S128x8192 .f32 :=
  k0_pay3 i (View.ld x0 rA) (View.ld x1 rB) (View.ld x2 rC) (View.ld x3 rD)

/-- The row-sum output's staging buffer after the body: its one store, of the tile's row sums. -/
def out0_4 (i : grid0.Coords) (x0 : Vec F S128x256 .bf16) (x1 : Vec F S8192x256 .bf16) (x2 : Vec F S128x1 .i32) (x3 : Vec F S1x8192 .i32) :
    Vec F S128x1 .f32 :=
  View.canon [⟨rC, k0_pay1 (tile i x0 x1 x2 x3)⟩]

/-- The row-count output's staging buffer after the body: its one store, of the tile's counts of positive entries. -/
def out0_5 (i : grid0.Coords) (x0 : Vec F S128x256 .bf16) (x1 : Vec F S8192x256 .bf16) (x2 : Vec F S128x1 .i32) (x3 : Vec F S1x8192 .i32) :
    Vec F S128x1 .f32 :=
  View.canon [⟨rC, k0_pay2 (tile i x0 x1 x2 x3) (Scalar.ofBits .f32 0x00000000#32)⟩]

/-- A whole-buffer store covers the buffer. -/
theorem coverC (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 4000000 in
/-- The kernel body on whole staging memrefs, the inputs' at read contents and the outputs' at anything, runs to the
    continuation holding the inputs' as they were and each output's at its one store. -/
theorem sound_kernel (c : Dev nD) (E : Set ℕ) (i : grid0.Coords)
    (arg1 : Memref sig .tc .vmem S128x256 .bf16) (harg1 : arg1.IsWhole) (arg2 : Memref sig .tc .vmem S8192x256 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S128x1 .f32) (harg6 : arg6.IsWhole)
    (x0 : Vec F S128x256 .bf16) (x1 : Vec F S8192x256 .bf16) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3) ∗ owns (c : Thread nD τ) arg6 fullShare (out0_5 i x0 x1 x2 x3)) -∗ K ⟨⟩))
      ⊢ wp frame (wpE (defs₀ (F := F)) Variants.none c none) E (cc0__triplet_kernel i arg1 harg1 arg2 harg2 arg3 harg3 arg4 harg4 arg5 harg5 arg6 harg6) K := by
  simp only [cc0__triplet_kernel_eq_skeleton]; unfold cc0__triplet_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  iexists _; isplitr
  swap; · iexact H5
  ipureintro
  exact View.read_writes_eq_canon _ _ _ (coverC _)

end Cert.KernelIdeal.Fr

end
-- ==== Proof.FrameI2.lean ====
/-
  The proof data of the one pipeline, the body obligation at every point, and the run.

  After the body at point `t` each input window's staging buffer holds its block (the body only reads it) and each output's
  its one store over the four input blocks.  The array behind windows 0 and 1 is split between them at half the share
  each; every other array is held whole.  The closing stretch reads the two outputs and writes fresh buffers only.
-/
import proofs.«144402_j40114994544729_1_alg».proof.Proof.FrameI1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer at
    its block and each output's at its store over the input blocks; the invariant the scoped rest and the generator
    register, untouched; nothing owed; the shared array at half the share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = out0_4 (grid0.coords t) (iblk m c 0 t) (iblk m c 1 t) (iblk m c 2 t) (iblk m c 3 t) := by dsimp only [dats]
theorem after0_5 (c : Dev nD) (t : Fin cfg0.N) : (dats m 0 c).after 5 t
    = out0_5 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The region-exit contents the closing stretch runs from -/

/-- Core `c`'s buffer contents at the region's exit, as far as the closing stretch reads them: the two outputs at what the
    write-backs of all points left, every other buffer as the region found it. -/
def W1 (c : Dev nD) : Valuation τ sig (Elt F) :=
  Function.update (Function.update (V0 m c) (Proc.devRef .tc main_v11_0) ((dats m 0 c).arrAt 4 cfg0.N))
    (Proc.devRef .tc main_v11_1) ((dats m 0 c).arrAt 5 cfg0.N)

theorem W1_v11_1 (c : Dev nD) : W1 m c (Proc.devRef .tc main_v11_1) = (dats m 0 c).arrAt 5 cfg0.N :=
  Function.update_self ..
theorem W1_v11_0 (c : Dev nD) : W1 m c (Proc.devRef .tc main_v11_0) = (dats m 0 c).arrAt 4 cfg0.N :=
  (Function.update_of_ne (by decide) ..).trans (Function.update_self ..)
theorem W1_of_ne (c : Dev nD) (b : Ref sig .tc) (h0 : b ≠ main_v11_0) (h1 : b ≠ main_v11_1) :
    W1 m c (Proc.devRef .tc b) = V0 m c (Proc.devRef .tc b) :=
  (Function.update_of_ne (fun e => h1 (Proc.devRef_injective _ e)) ..).trans (Function.update_of_ne (fun e => h0 (Proc.devRef_injective _ e)) ..)

end Cert.KernelIdeal.Fr

end
-- ==== Proof.FrameI3.lean ====
/-
  The run, and what it leaves in the buffers that are no window's array.

  The array behind the two embedding windows, whole at the full share at the region's entry, is split into the two halves
  the windows hold; the other arrays pass as they are.  The closing stretch touches only the two outputs and buffers that
  bypass the region, and writes neither output.  Hence every weakly fair execution of @main ends, with each bypassing
  buffer at the closing stretch's operations applied to the region-exit contents; the two argument arrays, which no
  operation writes, end as they began.
-/
import proofs.«144402_j40114994544729_1_alg».proof.Proof.FrameI2
import proofs.«144402_j40114994544729_1_alg».proof.Proof.LibSharedFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array split between its two windows -/

/-- The distinct buffers behind the six windows' arrays. -/
theorem arrImage : Finset.univ.image (Pipeline.arrRef spec0) = ([main_v8, main_v9, main_v10, main_v11_0, main_v11_1] : List (Ref sig .tc)).toFinset := by
  decide

/-- One window's array at a share, as the plain points-to of the buffer behind it. -/
theorem arr_pt (c : Dev nD) (w : Fin cfg0.W) (q : PosShare TreeShare) (Fv : Buf (Elt F) ((cfg0.win w).arr.view.loc (c.tc : Thread nD τ))) :
    (((cfg0.win w).arr.view.loc (c.tc : Thread nD τ)) ↦[(cfg0.win w).arr.view.set]{q} Fv : sProp 𝕄)
      = (((c.tc : Thread nD τ).loc (Pipeline.arrRef spec0 w)) ↦{q} Fv : sProp 𝕄) := by
  rw [(arr_whole0 w).set_eq_univ]

/-- At the region's entry the buffers behind the arrays, each whole, make the proof data's arrays: the embedding matrix's
    buffer is split in two halves, one for each of its windows. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v8) ↦{fullShare} Vv main_v8) ∗ (((c.tc : Thread nD τ).loc main_v9) ↦{fullShare} Vv main_v9)
          ∗ (((c.tc : Thread nD τ).loc main_v10) ↦{fullShare} Vv main_v10) ∗ (((c.tc : Thread nD τ).loc main_v11_0) ↦{fullShare} Vv main_v11_0)
          ∗ (((c.tc : Thread nD τ).loc main_v11_1) ↦{fullShare} Vv main_v11_1)) := by
  unfold Pipeline.arrBufs; exact bigSep_eq_bigSepL_of_eq _ arrImage (by decide) _

theorem arrAt_zero (c : Dev nD) (w : Fin cfg0.W) : (dats m 0 c).arrAt w 0 = V m c (Pipeline.arrRef spec0 w) := by
  show (dats m 0 c).A w = _
  exact A_eq m c w

theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_pos (by decide)]
theorem share_5 (c : Dev nD) : (dats m 0 c).share 5 = fullShare := by
  unfold Dat.share; rw [if_pos (by decide)]

theorem hsplit (c : Dev nD) :
    (Pipeline.arrBufs spec0 c (fun b => V0 m c (Proc.devRef .tc b)) : sProp 𝕄) ⊢ (dats m 0 c).arrays ((dats m 0 c).arrAt · 0) := by
  rw [arrBufs0_eq]
  unfold Dat.arrays
  rw [bigSep_W0]
  rw [arr_pt c 0, arr_pt c 1, arr_pt c 2, arr_pt c 3, arr_pt c 4, arr_pt c 5]
  rw [share_0, share_1, share_2, share_3, share_4, share_5]
  beta_reduce
  rw [arrAt_zero m c 0, arrAt_zero m c 1, arrAt_zero m c 2, arrAt_zero m c 3, arrAt_zero m c 4, arrAt_zero m c 5]
  iintro ⟨H8, H9, H10, H11, H12⟩
  ihave Hs := (pointsTo_share (PosShare.mem_left_op_right fullShare)).1 $$ H8
  icases Hs with ⟨H8l, H8r⟩
  isplitl [H8l]; · iexact H8l
  isplitl [H8r]; · iexact H8r
  isplitl [H9]; · iexact H9
  isplitl [H10]; · iexact H10
  isplitl [H11]; · iexact H11
  iexact H12

/-! ## The closing stretch's side conditions -/

/-- The windows whose arrays the closing stretch reads: the two outputs. Each is the array of no other window, held whole. -/
abbrev Tw : Finset (Fin cfg0.W) := {4, 5}

theorem hT₁ : ∀ w ∈ Tw, ∀ w' : Fin cfg0.W, Pipeline.arrRef spec0 w' = Pipeline.arrRef spec0 w → w' = w := by decide

theorem hT₂ (c : Dev nD) : ∀ w ∈ Tw, (dats m 0 c).share w = fullShare := by
  intro w hw
  simp only [Tw, Finset.mem_insert, Finset.mem_singleton] at hw
  rcases hw with rfl | rfl
  · exact share_4 m c
  · exact share_5 m c

theorem hW₁a (c : Dev nD) : ∀ w ∈ Tw, W1 m c (Proc.devRef .tc (Pipeline.arrRef spec0 w)) = (dats m 0 c).arrAt w cfg0.N := by
  intro w hw
  simp only [Tw, Finset.mem_insert, Finset.mem_singleton] at hw
  rcases hw with rfl | rfl
  · exact W1_v11_0 m c
  · exact W1_v11_1 m c

theorem hW₁r (c : Dev nD) : ∀ b ∈ Pipeline.restRefs sig spec0, W1 m c (Proc.devRef .tc b) = V0 m c (Proc.devRef .tc b) := by
  intro b hb
  refine W1_of_ne m c b ?_ ?_
  · rintro rfl; exact absurd hb (by decide)
  · rintro rfl; exact absurd hb (by decide)

/-- The buffers the closing stretch may touch: the two outputs' arrays and every buffer that is no window's array. -/
abbrev tailSet : Finset (DevRef τ sig) :=
  ((Tw.image (Pipeline.arrRef spec0)) ∪ Pipeline.restRefs sig spec0).map ⟨Proc.devRef (τ := τ) (sig := sig) .tc, Proc.devRef_injective _⟩

theorem hostOps1_in : (hostOps1 : List (HloOp τ sig (Elt F))).Forall fun op => op.bufs ⊆ tailSet := by
  simp only [List.Forall, hostOps1, StableHlo.nullary_bufs, StableHlo.binary_bufs]; repeat' constructor
  all_goals decide
theorem hostOps1_1_in : (hostOps1_1 : List (HloOp τ sig (Elt F))).Forall fun op => op.bufs ⊆ tailSet := by
  simp only [List.Forall, hostOps1_1]
  show ({Proc.devRef .tc main_v14, Proc.devRef .tc main_v16, Proc.devRef .tc main_cst_5, Proc.devRef .tc main_v17} : Finset (DevRef τ sig)) ⊆ tailSet
  decide

theorem tail_sub : ∀ ops ∈ (tailOps : List (List (HloOp τ sig (Elt F)))), ∀ op ∈ ops, op.bufs ⊆ tailSet := by
  intro ops hops op hop
  simp only [tailOps, List.mem_cons, List.mem_nil_iff, or_false] at hops
  rcases hops with rfl | rfl
  · exact (List.forall_iff_forall_mem.mp hostOps1_in) op hop
  · exact (List.forall_iff_forall_mem.mp hostOps1_1_in) op hop

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp hostOps1_fresh) op hop
  · exact (List.forall_iff_forall_mem.mp hostOps1_1_fresh) op hop

theorem hostOps1_keeps : (hostOps1 : List (HloOp τ sig (Elt F))).Forall fun op =>
    ∀ w ∈ Tw, Proc.devRef .tc (Pipeline.arrRef spec0 w) ∉ op.writes := by
  simp only [List.Forall, hostOps1, StableHlo.nullary_writes, StableHlo.binary_writes]; repeat' constructor
  all_goals decide
theorem hostOps1_1_keeps : (hostOps1_1 : List (HloOp τ sig (Elt F))).Forall fun op =>
    ∀ w ∈ Tw, Proc.devRef .tc (Pipeline.arrRef spec0 w) ∉ op.writes := by
  simp only [List.Forall, hostOps1_1]
  show ∀ w ∈ Tw, Proc.devRef .tc (Pipeline.arrRef spec0 w) ∉ ({Proc.devRef .tc main_v17} : Finset (DevRef τ sig))
  decide

theorem tail_keeps : ∀ ops ∈ (tailOps : List (List (HloOp τ sig (Elt F)))), ∀ op ∈ ops,
    ∀ w ∈ Tw, Proc.devRef .tc (Pipeline.arrRef spec0 w) ∉ op.writes := by
  intro ops hops op hop
  simp only [tailOps, List.mem_cons, List.mem_nil_iff, or_false] at hops
  rcases hops with rfl | rfl
  · exact (List.forall_iff_forall_mem.mp hostOps1_keeps) op hop
  · exact (List.forall_iff_forall_mem.mp hostOps1_1_keeps) op hop

/-! ## The run -/

set_option backward.isDefEq.respectTransparency.types false in
/-- For any float values, from any memory with zero counters: every weakly fair execution of @main terminates, and every
    buffer that is no window's array ends at the closing stretch's operations applied to the region-exit contents. -/
theorem run_main : θ_run defs (onTc (τ := τ) (main (F := F))) (s₀ m ρ)
    (fun r => ∀ c : Dev nD, ∀ b ∈ Pipeline.restRefs sig spec0,
      r.2.mem ((c.tc : Thread nD τ).loc b) = StableHlo.after (tailOps (F := F)).flatten (W1 m c) (Proc.devRef .tc b)) :=
  Pipeline.Shared.θ_run_frame_around_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := tailOps)
    (hmain := hmain m Variants.none) (hsplit := hsplit m) (T := Tw) (hT₁ := hT₁) (hT₂ := hT₂ m)
    (W₁ := W1 m) (hW₁a := hW₁a m) (hW₁r := hW₁r m)
    (hsub := tail_sub) (hfresh := tail_fresh) (hkeep := tail_keeps) (hΦ := fun _ _ => rfl)

/-! ## The argument arrays end as they began -/

/-- No operation of the opening stretch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Nor does one of the closing stretch. -/
theorem final_arg0 (c : Dev nD) :
    StableHlo.after (tailOps (F := F)).flatten (W1 m c) (Proc.devRef .tc main_arg0) = m ((c : Thread nD τ).loc main_arg0) := by
  rw [StableHlo.after_of_forall_not_mem (b := Proc.devRef .tc main_arg0) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    W1_of_ne m c main_arg0 (by decide) (by decide)]
  exact V_main_arg0 m c
theorem final_arg1 (c : Dev nD) :
    StableHlo.after (tailOps (F := F)).flatten (W1 m c) (Proc.devRef .tc main_arg1) = m ((c : Thread nD τ).loc main_arg1) := by
  rw [StableHlo.after_of_forall_not_mem (b := Proc.devRef .tc main_arg1) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    W1_of_ne m c main_arg1 (by decide) (by decide)]
  exact V_main_arg1 m c

/-- The frame: the program runs to the end and its two argument arrays end unchanged; with them, the result's contents. -/
theorem run_args : θ_run defs (onTc (τ := τ) (main (F := F))) ⟨m, fun _ => 0, ρ⟩ (fun r => ∀ c : Dev nD,
      r.2.mem ((c.tc : Thread nD τ).loc main_v17) = StableHlo.after (tailOps (F := F)).flatten (W1 m c) (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v17 (Pipeline.mem_restRefs_of main_v17 (by decide) (by decide)),
     (h c main_arg0 (Pipeline.mem_restRefs_of main_arg0 (by decide) (by decide))).trans (final_arg0 m c),
     (h c main_arg1 (Pipeline.mem_restRefs_of main_arg1 (by decide) (by decide))).trans (final_arg1 m c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_args m ρ)

end Cert.KernelIdeal.Fr

end
-- ==== Proof.Spec.lean ====
/-
  The mathematics both programs compute, stated once over the extended reals.

  From the row-normalised embeddings `e r k` (8192 rows of 256) and the labels `lab r`:
  the cosine distance clamped at zero, `dist r b = max 0 (1 - ∑ k, e r k * e b k)`; for an anchor `r`
  the closest negative `hardest r = min over b of (dist r b where the labels differ, the large stand-in 1e9
  where they agree)`, the minimum taken from +∞; the loss of the pair `(r, b)`,
  `max (dist r b - hardest r + 1) 0` where the labels agree and `r ≠ b`, else `0`; and the mean of the
  strictly positive losses (zero when there is none).  The kernel sums each row first and then the rows, counting
  the positive losses as floats; the reference sums all pairs at once and counts them as a 32-bit integer.
-/
import Idealize.ShloMosaic.PureOps.Ideal
import Idealize.ShloMosaic.PureOps
import Idealize.ShloMosaic.Lib.StableHlo

noncomputable section

namespace Tri

open Idealize.ShloMosaic

abbrev SN : Shape := ⟨1, ![8192]⟩
abbrev SNx1 : Shape := ⟨2, ![8192, 1]⟩
abbrev SNxN : Shape := ⟨2, ![8192, 8192]⟩
abbrev S0 : Shape := ⟨0, ![]⟩

/-- The float words the two programs share, read as extended reals: one, zero, the stand-in 1e9. -/
abbrev f1 : EReal := Ideal.ofBits .f32 0x3F800000#32
abbrev f0 : EReal := Ideal.ofBits .f32 0x00000000#32
abbrev fBig : EReal := Ideal.ofBits .f32 0x4E6E6B28#32

section Pointwise

variable (e : Fin 8192 → Fin 256 → EReal) (lab : Fin 8192 → BitVec 32)

/-- The inner product of rows `r` and `b`. -/
def sim (r b : Fin 8192) : EReal := ∑ k : Fin 256, e r k * e b k

/-- The cosine distance, clamped at zero. -/
def dist (r b : Fin 8192) : EReal := max f0 (f1 - sim e r b)

/-- The distance where `b` is a negative of `r`, the stand-in where it is not. -/
def negd (r b : Fin 8192) : EReal := if lab r = lab b then fBig else dist e r b

/-- The closest negative of `r`: the minimum over all `b`, from +∞. -/
def hardest (r : Fin 8192) : EReal := Finset.univ.inf (negd e lab r)

/-- The loss of the pair `(r, b)`. -/
def lossAt (r b : Fin 8192) : EReal :=
  if lab r = lab b ∧ r ≠ b then max (dist e r b - hardest e lab r + f1) f0 else f0

/-- One for a strictly positive value, zero otherwise, as the kernel counts: the compare's bit widened and converted. -/
def ind (x : EReal) : EReal := ((((Ideal.cmp .ogt x f0).setWidth 32).toInt : ℝ) : EReal)

/-- A row's loss. -/
def rowSum (r : Fin 8192) : EReal := ∑ b : Fin 8192, lossAt e lab r b

/-- A row's count of positive losses, as a float. -/
def rowCnt (r : Fin 8192) : EReal := ∑ b : Fin 8192, ind (lossAt e lab r b)

/-- The kernel's two result arrays. -/
def rowSumV : FVec Ideal SNx1 .f32 := fun i => rowSum e lab ⟨(i 0).val, (i 0).isLt⟩
def rowCntV : FVec Ideal SNx1 .f32 := fun i => rowCnt e lab ⟨(i 0).val, (i 0).isLt⟩

/-- The reference's loss matrix. -/
def lossM : FVec Ideal SNxN .f32 := fun i => lossAt e lab ⟨(i 0).val, (i 0).isLt⟩ ⟨(i 1).val, (i 1).isLt⟩

end Pointwise

/-- What the kernel's program makes of its two result arrays: both summed, then the mean where the count is positive. -/
def kerTail (hr : SNx1.ReducesTo [0, 1] S0) (h0 : 0 < S0.numel) (s c : FVec Ideal SNx1 .f32) : FVec Ideal S0 .f32 :=
  let v12 : FVec Ideal S0 .f32 := Host.reduceAdd s (constant (F := Ideal) S0 .f32 0x00000000#32) hr h0
  let v13 : FVec Ideal S0 .f32 := Host.reduceAdd c (constant (F := Ideal) S0 .f32 0x00000000#32) hr h0
  select (cmpf .ogt v13 (constant (F := Ideal) S0 .f32 0x00000000#32))
    (Host.divf v12 (maximumf v13 (constant (F := Ideal) S0 .f32 0x3F800000#32)))
    (constant (F := Ideal) S0 .f32 0x00000000#32)

/-- What the reference makes of its loss matrix: the positive entries counted in 32-bit integers, all entries summed,
    then the mean where the count is positive. -/
def refTail (hb : S0.BroadcastsInDim SNxN (![] : Fin 0 → Fin SNxN.rank)) (hr : SNxN.ReducesTo [0, 1] S0) (h0 : 0 < S0.numel)
    (hlt : 1 < 32) (L : FVec Ideal SNxN .f32) : FVec Ideal S0 .f32 :=
  let v36 : IVec SNxN 1 := cmpf .ogt L (broadcastInDim SNxN ![] hb (constant (F := Ideal) S0 .f32 0x00000000#32))
  let v38 : IVec S0 32 := Host.reduce IntOp.addi (extui 32 v36 hlt) (constantI S0 32 0#32) hr h0
  let v39 : FVec Ideal S0 .f32 := Host.reduceAdd L (constant (F := Ideal) S0 .f32 0x00000000#32) hr h0
  select (cmpi .sgt v38 (constantI S0 32 0#32))
    (Host.divf v39 (sitofp (F := Ideal) .f32 (maxsi v38 (constantI S0 32 1#32))))
    (constant (F := Ideal) S0 .f32 0x00000000#32)

end Tri

end
-- ==== Proof.SpecNorm.lean ====
/-
  The host stretch both programs begin with, as one function: each row of `x` divided by the larger of its Euclidean
  norm and the word 0x2B8CBCCC (1e-12 as a float).  Both printed programs apply these same operations to their first
  argument, so neither side opens it: the row-normalised embeddings are `normV … x`, read at row `r` and column `k`
  by `eOf`; the labels are read by `labOf`.
-/
import proofs.«144402_j40114994544729_1_alg».proof.Proof.Spec
import Idealize.ShloMosaic.Lib.ValueIdx

noncomputable section

namespace Tri

open Idealize.ShloMosaic

abbrev SNxD : Shape := ⟨2, ![8192, 256]⟩

/-- Row-normalisation, operation by operation as both programs print it. -/
def normV (hr : SNxD.ReducesTo [1] SN) (h0 : 0 < S0.numel)
    (hb1 : SN.BroadcastsInDim SNx1 (![0] : Fin 1 → Fin SNx1.rank))
    (hb0 : S0.BroadcastsInDim SNx1 (![] : Fin 0 → Fin SNx1.rank))
    (hb2 : SNx1.BroadcastsInDim SNxD (![0, 1] : Fin 2 → Fin SNxD.rank))
    (x : FVec Ideal SNxD .f32) : FVec Ideal SNxD .f32 :=
  let v1 : FVec Ideal SN .f32 := Host.reduceAdd (mulf x x) (constant (F := Ideal) S0 .f32 0x00000000#32) hr h0
  let v3 : FVec Ideal SNx1 .f32 := Host.sqrt (broadcastInDim SNx1 ![0] hb1 v1)
  let v5 : FVec Ideal SNx1 .f32 := maximumf v3 (broadcastInDim SNx1 ![] hb0 (constant (F := Ideal) S0 .f32 0x2B8CBCCC#32))
  Host.divf x (broadcastInDim SNxD ![0, 1] hb2 v5)

/-- A matrix of 8192 rows of 256 read by row and column. -/
def eOf (v : FVec Ideal SNxD .f32) : Fin 8192 → Fin 256 → EReal := fun r k => v (ValueIdx.ix2 r k)

/-- The label vector read by row. -/
def labOf (l : IVec SN 32) : Fin 8192 → BitVec 32 := fun r => l (ValueIdx.ix1 r)

end Tri

end
-- ==== Proof.PayValue.lean ====
/-
  The kernel body's arithmetic read at an index, over the extended reals.

  One grid point `i` holds rows `128 i … 128 i + 127` of the normalised embeddings. Its loss tile is a pure function
  of four blocks: the tile's own rows, all rows, the tile's labels, all labels. Read at `(a, b)` it is the loss of
  the pair (row `128 i + a`, row `b`) as the specification states it; its row sums and its row counts of strictly
  positive entries are the specification's row loss and row count.

  The steps, innermost first. The product of the tile's rows with all rows, both contracted along their second
  axis, is at `(a, b)` the inner product `∑ k, e (128 i + a) k * e b k`. One minus it, clamped below at zero, is the
  distance. The 32-bit word `i * 128 + a` equals the word `b` exactly when `128 i + a = b`, since neither side
  reaches `2 ^ 32`: this is the bit "same row". The compare of the two label words is the bit "same label". The
  distance where the labels differ and the stand-in where they agree, minimised along the row from `+∞`, is the
  closest negative: a fold of `min` from `⊤` over the row's coordinates is the infimum over them. The selected
  hinge `max (distance − closest negative + 1) 0` where the labels agree off the diagonal, zero elsewhere, is the
  loss; a sum along the row, read through the cast that appends a unit axis, is the row's total.
-/
import proofs.«144402_j40114994544729_1_alg».proof.Proof.Gen.KernelIdeal.Skeleton
import proofs.«144402_j40114994544729_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Layout operations of a column, read at an index -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, u)`, the array at `p`, whatever the unit coordinate. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Along a row of an `[a, b]` array: the index over `p` with coordinate `k` put back on the reduced axis is `(p, k)`. -/
theorem lift_ix1 {a b : ℕ} (h : Shape.Reduces ⟨2, ![a, b]⟩ [1] ⟨1, ![a]⟩) (p : Fin a) (k : Fin b) :
    h.lift (ix1 p) k = ix2 p k := by
  funext c
  apply Fin.ext
  match c with
  | ⟨0, _⟩ => rfl
  | ⟨1, _⟩ => rfl

end Layout

/-! ## A row's minimum -/

section Reductions
variable {φ : FTy}

/-- A minimum reduction over one axis, over the extended reals: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from `⊤` is the infimum. -/
theorem fold_min_top_eq_inf {ι : Type} (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- The word of `+∞` denotes `⊤`. -/
theorem ofBits_inf_f32 : Ideal.ofBits .f32 0x7F800000#32 = ⊤ := by simp [Ideal.ofBits, Ideal.ieee]

end Reductions

/-! ## Mask bits as propositions -/

section Words

/-- The equality compare's bit is set exactly when the words are equal. -/
theorem cmpi_eq_one_iff {w : ℕ} (x y : BitVec w) : IntOp.cmpi .eq x y = 1#1 ↔ x = y := by
  unfold IntOp.cmpi
  by_cases h : x = y
  · subst h; simp
  · have hb : (x == y) = false := beq_eq_false_iff_ne.mpr h
    rw [hb]; simp [h]

/-- A bit flipped is set exactly when the bit is clear. -/
theorem xori_one_eq_one_iff (c : BitVec 1) : IntOp.xori c 1#1 = 1#1 ↔ ¬ c = 1#1 := by
  rcases BitVec.eq_zero_or_eq_one c with h | h <;> subst h <;> decide

/-- The conjunction of two bits is set exactly when both are. -/
theorem andi_eq_one_iff (c d : BitVec 1) : IntOp.andi c d = 1#1 ↔ c = 1#1 ∧ d = 1#1 := by
  rcases BitVec.eq_zero_or_eq_one c with h | h <;> rcases BitVec.eq_zero_or_eq_one d with h' | h' <;>
    subst h <;> subst h' <;> decide

/-- A select on a bit is the conditional on the bit being set. -/
theorem select_eq_ite {β : Type} (c : BitVec 1) (x y : β) : Scalar.select c x y = if c = 1#1 then x else y := rfl

/-- For a tile number below 64, a row of the tile below 128 and a column below 8192, the word `n * 128 + a` is the
    word `b` exactly when `128 n + a = b`: all three stay below `2 ^ 32`, so nothing wraps. -/
theorem row_word_eq_iff (n a b : ℕ) (hn : n < 64) (ha : a < 128) (hb : b < 8192) :
    IntOp.addi (Scalar.muli (BitVec.ofNat 32 n) 128#32) (BitVec.ofNat 32 a) = BitVec.ofNat 32 b ↔ 128 * n + a = b := by
  unfold IntOp.addi Scalar.muli IntOp.muli
  rw [← BitVec.toNat_inj]
  simp only [BitVec.toNat_add, BitVec.toNat_mul, BitVec.toNat_ofNat]
  omega

end Words

/-! ## The product of the tile's rows with all rows -/

theorem lhs_dot_0 (j : S128x8192.Idx) (q : dot_S128x256_S8192x256_S128x8192_1_1_0_0_n_n.contr.Idx) :
    (dot_S128x256_S8192x256_S128x8192_1_1_0_0_n_n.lhsIdx j q 0).val = (j 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
theorem lhs_dot_1 (j : S128x8192.Idx) (q : dot_S128x256_S8192x256_S128x8192_1_1_0_0_n_n.contr.Idx) :
    (dot_S128x256_S8192x256_S128x8192_1_1_0_0_n_n.lhsIdx j q 1).val = (q ⟨0, by decide⟩).val :=
  dot_S128x256_S8192x256_S128x8192_1_1_0_0_n_n.lhsIdx_val_of_single rfl j q
theorem rhs_dot_0 (j : S128x8192.Idx) (q : dot_S128x256_S8192x256_S128x8192_1_1_0_0_n_n.contr.Idx) :
    (dot_S128x256_S8192x256_S128x8192_1_1_0_0_n_n.rhsIdx j q 0).val = (j 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
theorem rhs_dot_1 (j : S128x8192.Idx) (q : dot_S128x256_S8192x256_S128x8192_1_1_0_0_n_n.contr.Idx) :
    (dot_S128x256_S8192x256_S128x8192_1_1_0_0_n_n.rhsIdx j q 1).val = (q ⟨0, by decide⟩).val :=
  dot_S128x256_S8192x256_S128x8192_1_1_0_0_n_n.rhsIdx_val_of_single rfl j q

/-- The product of a `[128, 256]` block with an `[8192, 256]` block, both contracted along their second axis and
    accumulated into zero, is at `(a, b)` the inner product of row `a` of the first with row `b` of the second. -/
theorem matmul_rows_apply (l : FVec Ideal S128x256 .bf16) (r : FVec Ideal S8192x256 .bf16) (a : Fin 128) (b : Fin 8192) :
    matmul dot_S128x256_S8192x256_S128x8192_1_1_0_0_n_n none l r (constant (F := Ideal) S128x8192 .f32 0x00000000#32) (ix2 a b)
      = ∑ k : Fin 256, l (ix2 a k) * r (ix2 b k) := by
  show FloatOps.matmul dot_S128x256_S8192x256_S128x8192_1_1_0_0_n_n none l r (constant (F := Ideal) S128x8192 .f32 0x00000000#32) (ix2 a b) = _
  rw [Ideal.matmul_constant_zero_apply, ← Equiv.sum_comp (contrEquiv1 dot_S128x256_S8192x256_S128x8192_1_1_0_0_n_n 256 rfl rfl).symm]
  refine Finset.sum_congr rfl fun k _ => ?_
  have hk := contrEquiv1_symm_val dot_S128x256_S8192x256_S128x8192_1_1_0_0_n_n 256 rfl rfl k
  have el : dot_S128x256_S8192x256_S128x8192_1_1_0_0_n_n.lhsIdx (ix2 a b) ((contrEquiv1 dot_S128x256_S8192x256_S128x8192_1_1_0_0_n_n 256 rfl rfl).symm k) = ix2 a k := funext fun c => Fin.ext (by
    match c with
    | ⟨0, _⟩ => exact lhs_dot_0 _ _
    | ⟨1, _⟩ => exact (lhs_dot_1 _ _).trans hk)
  have er : dot_S128x256_S8192x256_S128x8192_1_1_0_0_n_n.rhsIdx (ix2 a b) ((contrEquiv1 dot_S128x256_S8192x256_S128x8192_1_1_0_0_n_n 256 rfl rfl).symm k) = ix2 b k := funext fun c => Fin.ext (by
    match c with
    | ⟨0, _⟩ => exact rhs_dot_0 _ _
    | ⟨1, _⟩ => exact (rhs_dot_1 _ _).trans hk)
  rw [el, er]

/-! ## The tile's sub-vectors, named -/

/-- The row of the embeddings that row `a` of tile `i` is. -/
def row (i : grid0.Coords) (a : Fin 128) : Fin 8192 :=
  ⟨128 * (i 0).val + a.val, by
    have hi : (i 0).val < 64 := (i 0).isLt
    have ha := a.isLt
    omega⟩

theorem row_val (i : grid0.Coords) (a : Fin 128) : (row i a).val = 128 * (i 0).val + a.val := rfl

section Tile

variable (i : grid0.Coords) (v0 : Vec Ideal S128x256 .bf16) (v2 : Vec Ideal S8192x256 .bf16)
  (v4 : Vec Ideal S128x1 .i32) (v6 : Vec Ideal S1x8192 .i32)

/-- The inner products of the tile's rows with all rows. -/
def simT : FVec Ideal S128x8192 .f32 :=
  matmul dot_S128x256_S8192x256_S128x8192_1_1_0_0_n_n none
    (shapeCast S128x256 v0 shapeCasts_S128x256_S128x256 : FVec Ideal S128x256 .bf16)
    (shapeCast S8192x256 v2 shapeCasts_S8192x256_S8192x256 : FVec Ideal S8192x256 .bf16)
    (constant (F := Ideal) S128x8192 .f32 0x00000000#32)

/-- One minus the inner product, clamped below at zero. -/
def distT : FVec Ideal S128x8192 .f32 :=
  maximumf (broadcast S128x8192 (Scalar.ofBits (F := Ideal) .f32 0x00000000#32))
    (subf (broadcast S128x8192 (Scalar.ofBits (F := Ideal) .f32 0x3F800000#32)) (simT v0 v2))

/-- The bit "same row": the tile's row number, as a word, against the column number. -/
def eyeT : IVec S128x8192 1 :=
  cmpi .eq
    (broadcastTo S128x8192
      (addi (broadcast S128x1 (Scalar.muli (BitVec.ofNat 32 (i 0).val) 128#32)) (iota .tc S128x1 32 [0] iota_S128x1_d0_w32))
      broadcasts_S128x1_S128x8192)
    (broadcastTo S128x8192 (iota .tc S1x8192 32 [1] iota_S1x8192_d1_w32) broadcasts_S1x8192_S128x8192)

/-- The bit "same label". -/
def leqT : IVec S128x8192 1 :=
  cmpi .eq
    (broadcastTo S128x8192 (shapeCast S128x1 v4 shapeCasts_S128x1_S128x1 : IVec S128x1 32) broadcasts_S128x1_S128x8192)
    (broadcastTo S128x8192 (shapeCast S1x8192 v6 shapeCasts_S1x8192_S1x8192 : IVec S1x8192 32) broadcasts_S1x8192_S128x8192)

/-- The distance where the labels differ, the stand-in where they agree. -/
def negdT : FVec Ideal S128x8192 .f32 :=
  select (xori (leqT v4 v6) (constantI S128x8192 1 1#1)) (distT v0 v2)
    (broadcast S128x8192 (Scalar.ofBits (F := Ideal) .f32 0x4E6E6B28#32))

/-- Each row's closest negative, spread back along the row. -/
def hardT : FVec Ideal S128x8192 .f32 :=
  broadcastTo S128x8192
    (shapeCast S128x1
      (multiReduction (F := Ideal) .minimumf [1] S128 (negdT v0 v2 v4 v6) 0x7F800000#32 reduces_S128x8192_S128 (.inl rfl) rfl)
      shapeCasts_S128_S128x1)
    broadcasts_S128x1_S128x8192

/-- The loss tile is the hinge of distance minus closest negative plus one, selected where the labels agree off the
    diagonal, zero elsewhere: the generated term, with its sub-vectors named. -/
theorem pay3_eq : k0_pay3 (F := Ideal) i v0 v2 v4 v6 =
    select (andi (leqT v4 v6) (xori (eyeT i) (constantI S128x8192 1 1#1)))
      (maximumf
        (addf (subf (distT v0 v2) (hardT v0 v2 v4 v6)) (broadcast S128x8192 (Scalar.ofBits (F := Ideal) .f32 0x3F800000#32)))
        (broadcast S128x8192 (Scalar.ofBits (F := Ideal) .f32 0x00000000#32)))
      (broadcast S128x8192 (Scalar.ofBits (F := Ideal) .f32 0x00000000#32)) := rfl

variable (e : Fin 8192 → Fin 256 → EReal) (lab : Fin 8192 → BitVec 32)

theorem simT_apply (h0 : ∀ (a : Fin 128) (k : Fin 256), v0 (ix2 a k) = e (row i a) k)
    (h2 : ∀ (b : Fin 8192) (k : Fin 256), v2 (ix2 b k) = e b k) (a : Fin 128) (b : Fin 8192) :
    simT v0 v2 (ix2 a b) = Tri.sim e (row i a) b := by
  unfold simT Tri.sim
  rw [matmul_rows_apply, shapeCast_self, shapeCast_self]
  exact Finset.sum_congr rfl fun k _ => by rw [h0, h2]

theorem distT_apply (h0 : ∀ (a : Fin 128) (k : Fin 256), v0 (ix2 a k) = e (row i a) k)
    (h2 : ∀ (b : Fin 8192) (k : Fin 256), v2 (ix2 b k) = e b k) (a : Fin 128) (b : Fin 8192) :
    distT v0 v2 (ix2 a b) = Tri.dist e (row i a) b := by
  unfold distT Tri.dist
  show max (Ideal.ofBits .f32 0x00000000#32) (Ideal.ofBits .f32 0x3F800000#32 - simT v0 v2 (ix2 a b)) = _
  rw [simT_apply i v0 v2 e h0 h2]

theorem eyeT_apply (a : Fin 128) (b : Fin 8192) : eyeT i (ix2 a b) = 1#1 ↔ row i a = b := by
  have hi : (i 0).val < 64 := (i 0).isLt
  unfold eyeT
  show IntOp.cmpi .eq
      (broadcastTo S128x8192
        (addi (broadcast S128x1 (Scalar.muli (BitVec.ofNat 32 (i 0).val) 128#32)) (iota .tc S128x1 32 [0] iota_S128x1_d0_w32))
        broadcasts_S128x1_S128x8192 (ix2 a b))
      (broadcastTo S128x8192 (iota .tc S1x8192 32 [1] iota_S1x8192_d1_w32) broadcasts_S1x8192_S128x8192 (ix2 a b)) = 1#1 ↔ _
  rw [broadcastTo_a1_ab_apply, broadcastTo_1b_ab_apply, cmpi_eq_one_iff]
  show IntOp.addi (Scalar.muli (BitVec.ofNat 32 (i 0).val) 128#32) (iota .tc S128x1 32 [0] iota_S128x1_d0_w32 (ix2 a (0 : Fin 1)))
      = iota .tc S1x8192 32 [1] iota_S1x8192_d1_w32 (ix2 (0 : Fin 1) b) ↔ _
  rw [iota_single_apply, iota_single_apply]
  show IntOp.addi (Scalar.muli (BitVec.ofNat 32 (i 0).val) 128#32) (BitVec.ofNat 32 a.val) = BitVec.ofNat 32 b.val ↔ _
  rw [row_word_eq_iff _ _ _ hi a.isLt b.isLt]
  exact ⟨fun h => Fin.ext h, fun h => congrArg Fin.val h⟩

theorem leqT_apply (h4 : ∀ a : Fin 128, v4 (ix2 a (0 : Fin 1)) = lab (row i a))
    (h6 : ∀ b : Fin 8192, v6 (ix2 (0 : Fin 1) b) = lab b) (a : Fin 128) (b : Fin 8192) :
    leqT v4 v6 (ix2 a b) = 1#1 ↔ lab (row i a) = lab b := by
  unfold leqT
  show IntOp.cmpi .eq
      (broadcastTo S128x8192 (shapeCast S128x1 v4 shapeCasts_S128x1_S128x1 : IVec S128x1 32) broadcasts_S128x1_S128x8192 (ix2 a b))
      (broadcastTo S128x8192 (shapeCast S1x8192 v6 shapeCasts_S1x8192_S1x8192 : IVec S1x8192 32) broadcasts_S1x8192_S128x8192 (ix2 a b))
        = 1#1 ↔ _
  rw [broadcastTo_a1_ab_apply, broadcastTo_1b_ab_apply, shapeCast_self, shapeCast_self, cmpi_eq_one_iff, h4, h6]

theorem negdT_apply (h0 : ∀ (a : Fin 128) (k : Fin 256), v0 (ix2 a k) = e (row i a) k)
    (h2 : ∀ (b : Fin 8192) (k : Fin 256), v2 (ix2 b k) = e b k)
    (h4 : ∀ a : Fin 128, v4 (ix2 a (0 : Fin 1)) = lab (row i a))
    (h6 : ∀ b : Fin 8192, v6 (ix2 (0 : Fin 1) b) = lab b) (a : Fin 128) (b : Fin 8192) :
    negdT v0 v2 v4 v6 (ix2 a b) = Tri.negd e lab (row i a) b := by
  unfold negdT Tri.negd
  show Scalar.select (IntOp.xori (leqT v4 v6 (ix2 a b)) 1#1) (distT v0 v2 (ix2 a b)) (Ideal.ofBits .f32 0x4E6E6B28#32) = _
  rw [select_eq_ite, distT_apply i v0 v2 e h0 h2]
  by_cases hl : lab (row i a) = lab b
  · rw [if_pos hl, if_neg (fun hx => (xori_one_eq_one_iff _).mp hx ((leqT_apply i v4 v6 lab h4 h6 a b).mpr hl))]
  · rw [if_neg hl, if_pos ((xori_one_eq_one_iff _).mpr fun hx => hl ((leqT_apply i v4 v6 lab h4 h6 a b).mp hx))]

theorem hardT_apply (h0 : ∀ (a : Fin 128) (k : Fin 256), v0 (ix2 a k) = e (row i a) k)
    (h2 : ∀ (b : Fin 8192) (k : Fin 256), v2 (ix2 b k) = e b k)
    (h4 : ∀ a : Fin 128, v4 (ix2 a (0 : Fin 1)) = lab (row i a))
    (h6 : ∀ b : Fin 8192, v6 (ix2 (0 : Fin 1) b) = lab b) (a : Fin 128) (b : Fin 8192) :
    hardT v0 v2 v4 v6 (ix2 a b) = Tri.hardest e lab (row i a) := by
  unfold hardT Tri.hardest
  rw [broadcastTo_a1_ab_apply, shapeCast_a_a1_apply]
  refine (multiReduction_minimumf_single _ _ _ _ _ (ix1 a)).trans ?_
  rw [Ideal.ofBits_def, ofBits_inf_f32, fold_min_top_eq_inf]
  refine congrArg (Finset.univ.inf) (funext fun (c : Fin 8192) => ?_)
  show negdT v0 v2 v4 v6 (reduces_S128x8192_S128.lift (ix1 a) c) = _
  rw [lift_ix1]
  exact negdT_apply i v0 v2 v4 v6 e lab h0 h2 h4 h6 a c

/-- The loss tile at `(a, b)` is the loss of the pair (row `128 i + a`, row `b`). -/
theorem pay3_apply (h0 : ∀ (a : Fin 128) (k : Fin 256), v0 (ix2 a k) = e (row i a) k)
    (h2 : ∀ (b : Fin 8192) (k : Fin 256), v2 (ix2 b k) = e b k)
    (h4 : ∀ a : Fin 128, v4 (ix2 a (0 : Fin 1)) = lab (row i a))
    (h6 : ∀ b : Fin 8192, v6 (ix2 (0 : Fin 1) b) = lab b) (a : Fin 128) (b : Fin 8192) :
    k0_pay3 (F := Ideal) i v0 v2 v4 v6 (ix2 a b) = Tri.lossAt e lab (row i a) b := by
  rw [pay3_eq]
  unfold Tri.lossAt
  show Scalar.select (IntOp.andi (leqT v4 v6 (ix2 a b)) (IntOp.xori (eyeT i (ix2 a b)) 1#1))
      (max (distT v0 v2 (ix2 a b) - hardT v0 v2 v4 v6 (ix2 a b) + Ideal.ofBits .f32 0x3F800000#32) (Ideal.ofBits .f32 0x00000000#32))
      (Ideal.ofBits .f32 0x00000000#32) = _
  rw [select_eq_ite, distT_apply i v0 v2 e h0 h2, hardT_apply i v0 v2 v4 v6 e lab h0 h2 h4 h6]
  have hc : (IntOp.andi (leqT v4 v6 (ix2 a b)) (IntOp.xori (eyeT i (ix2 a b)) 1#1) = 1#1)
      ↔ (lab (row i a) = lab b ∧ row i a ≠ b) := by
    rw [andi_eq_one_iff, xori_one_eq_one_iff, leqT_apply i v4 v6 lab h4 h6, eyeT_apply]
  by_cases hp : lab (row i a) = lab b ∧ row i a ≠ b
  · rw [if_pos hp, if_pos (hc.mpr hp)]
  · rw [if_neg hp, if_neg (fun hx => hp (hc.mp hx))]

/-- The tile's row sums, read through the appended unit axis: row `128 i + a`'s loss. -/
theorem pay1_apply (h0 : ∀ (a : Fin 128) (k : Fin 256), v0 (ix2 a k) = e (row i a) k)
    (h2 : ∀ (b : Fin 8192) (k : Fin 256), v2 (ix2 b k) = e b k)
    (h4 : ∀ a : Fin 128, v4 (ix2 a (0 : Fin 1)) = lab (row i a))
    (h6 : ∀ b : Fin 8192, v6 (ix2 (0 : Fin 1) b) = lab b) (a : Fin 128) :
    k0_pay1 (F := Ideal) (k0_pay3 i v0 v2 v4 v6) (ix2 a (0 : Fin 1)) = Tri.rowSum e lab (row i a) := by
  unfold k0_pay1 Tri.rowSum
  show shapeCast S128x1
      (multiReduction (F := Ideal) .add [1] S128 (k0_pay3 i v0 v2 v4 v6) 0x00000000#32 reduces_S128x8192_S128 (.inl rfl) rfl)
      shapeCasts_S128_S128x1 (ix2 a (0 : Fin 1)) = _
  rw [shapeCast_a_a1_apply]
  refine (Ideal.multiReduction_add_single _ _ _ _ _ (ix1 a)).trans ?_
  show ∑ c : Fin 8192, k0_pay3 (F := Ideal) i v0 v2 v4 v6 (reduces_S128x8192_S128.lift (ix1 a) c) = _
  refine Finset.sum_congr rfl fun c _ => ?_
  rw [lift_ix1]
  exact pay3_apply i v0 v2 v4 v6 e lab h0 h2 h4 h6 a c

/-- The tile's row counts of strictly positive entries, as floats: row `128 i + a`'s count. -/
theorem pay2_apply (h0 : ∀ (a : Fin 128) (k : Fin 256), v0 (ix2 a k) = e (row i a) k)
    (h2 : ∀ (b : Fin 8192) (k : Fin 256), v2 (ix2 b k) = e b k)
    (h4 : ∀ a : Fin 128, v4 (ix2 a (0 : Fin 1)) = lab (row i a))
    (h6 : ∀ b : Fin 8192, v6 (ix2 (0 : Fin 1) b) = lab b) (a : Fin 128) :
    k0_pay2 (F := Ideal) (k0_pay3 i v0 v2 v4 v6) (Scalar.ofBits (F := Ideal) .f32 0x00000000#32) (ix2 a (0 : Fin 1))
      = Tri.rowCnt e lab (row i a) := by
  unfold k0_pay2 Tri.rowCnt
  show shapeCast S128x1
      (multiReduction (F := Ideal) .add [1] S128
        (sitofp (F := Ideal) .f32 (extui 32 (cmpf .ogt (k0_pay3 (F := Ideal) i v0 v2 v4 v6)
          (broadcast S128x8192 (Scalar.ofBits (F := Ideal) .f32 0x00000000#32))) natLt_1_32))
        0x00000000#32 reduces_S128x8192_S128 (.inl rfl) rfl)
      shapeCasts_S128_S128x1 (ix2 a (0 : Fin 1)) = _
  rw [shapeCast_a_a1_apply]
  refine (Ideal.multiReduction_add_single _ _ _ _ _ (ix1 a)).trans ?_
  show ∑ c : Fin 8192, Tri.ind (k0_pay3 (F := Ideal) i v0 v2 v4 v6 (reduces_S128x8192_S128.lift (ix1 a) c)) = _
  refine Finset.sum_congr rfl fun c _ => ?_
  rw [lift_ix1, pay3_apply i v0 v2 v4 v6 e lab h0 h2 h4 h6 a c]

end Tile

end Cert.KernelIdeal.PayValue

end
-- ==== Proof.KerValueIn.lean ====
/-
  What the kernel region finds in its four input windows, entry by entry.

  The opening stretch leaves, in the array behind windows 0 and 1, the row-normalised embeddings (the cast to the
  narrower float format is the identity on extended reals); in the array behind window 2 the labels as a column, and in the
  one behind window 3 the labels as a row.  At grid point `t` window 0's block is rows `128 t … 128 t + 127` of the
  embeddings, window 1's all of them, window 2's the labels of those 128 rows, window 3's all labels.
-/
import proofs.«144402_j40114994544729_1_alg».proof.Proof.FrameI2
import proofs.«144402_j40114994544729_1_alg».proof.Proof.SpecNorm
import proofs.«144402_j40114994544729_1_alg».proof.Proof.PayValue
import Idealize.ShloMosaic.Lib.StableHlo.Run
import Idealize.ShloMosaic.Lib.ValueLayout
import Idealize.ShloMosaic.Lib.Pipeline.Value

set_option maxRecDepth 16384

noncomputable section

namespace Cert.KernelIdeal.KerValue

open Cert.KernelIdeal Cert.KernelIdeal.Gen Cert.KernelIdeal.Fr
open Idealize.ShloMosaic Idealize.ShloMosaic.TcCoe Idealize.SL.Sem Idealize.ShloMosaic.ValueIdx
open Cert.KernelIdeal.PayValue (row row_val shapeCast_a_a1_apply)

variable (m : (ℓ : Loc nD τ sig) → Buf (Elt Ideal) ℓ)

/-- The row-normalised embeddings of core `c`'s first argument, by row and column. -/
abbrev eArr (c : Dev nD) : Fin 8192 → Fin 256 → EReal :=
  Tri.eOf (Tri.normV reducesTo_S8192x256_S8192_d1 h_S_ bcast_S8192_S8192x1_0 bcast_S_S8192x1 bcast_S8192x1_S8192x256_0_1
    (m ((c.tc : Thread nD τ).loc main_arg0)))

/-- The labels of core `c`'s second argument, by row. -/
abbrev labArr (c : Dev nD) : Fin 8192 → BitVec 32 := Tri.labOf (m ((c.tc : Thread nD τ).loc main_arg1))

/-! ## The arrays behind the input windows -/

/-- The array behind windows 0 and 1 holds the row-normalised first argument. -/
theorem embeddings_array (c : Dev nD) :
    (V m c main_v8 : S8192x256.Idx → EReal)
      = Tri.normV reducesTo_S8192x256_S8192_d1 h_S_ bcast_S8192_S8192x1_0 bcast_S_S8192x1 bcast_S8192x1_S8192x256_0_1
          (m ((c.tc : Thread nD τ).loc main_arg0)) := by
  dsimp only [V, V0]
  simp only [hostOps0, List.flatten_cons, List.flatten_nil, List.append_nil]
  after_results
  rfl

/-- The array behind window 2 holds the labels recast as a column. -/
theorem label_column_array (c : Dev nD) :
    (V m c main_v9 : S8192x1.Idx → BitVec 32)
      = shapeCast S8192x1 (m ((c.tc : Thread nD τ).loc main_arg1) : S8192.Idx → BitVec 32) shapeCasts_S8192_S8192x1 := by
  dsimp only [V, V0]
  simp only [hostOps0, List.flatten_cons, List.flatten_nil, List.append_nil]
  after_results
  rfl

/-- The array behind window 3 holds the labels recast as a row. -/
theorem label_row_array (c : Dev nD) :
    (V m c main_v10 : S1x8192.Idx → BitVec 32)
      = shapeCast S1x8192 (m ((c.tc : Thread nD τ).loc main_arg1) : S8192.Idx → BitVec 32) shapeCasts_S8192_S1x8192 := by
  dsimp only [V, V0]
  simp only [hostOps0, List.flatten_cons, List.flatten_nil, List.append_nil]
  after_results
  rfl

theorem embeddings_array_apply (c : Dev nD) (r : Fin 8192) (k : Fin 256) :
    (V m c main_v8 : S8192x256.Idx → EReal) (ix2 r k) = eArr m c r k :=
  congrFun (embeddings_array m c) (ix2 r k)

/-- Entry `(r, 0)` of the label column is row `r`'s label. -/
theorem label_column_array_apply (c : Dev nD) (r : Fin 8192) :
    (V m c main_v9 : S8192x1.Idx → BitVec 32) (ix2 r (0 : Fin 1)) = labArr m c r :=
  (congrFun (label_column_array m c) (ix2 r (0 : Fin 1))).trans (shapeCast_a_a1_apply _ _ r 0)

/-- Entry `(0, b)` of the label row is row `b`'s label. -/
theorem label_row_array_apply (c : Dev nD) (b : Fin 8192) :
    (V m c main_v10 : S1x8192.Idx → BitVec 32) (ix2 (0 : Fin 1) b) = labArr m c b :=
  (congrFun (label_row_array m c) (ix2 (0 : Fin 1) b)).trans (shapeCast_a_1a_apply _ _ 0 b)

/-! ## The blocks -/

/-- The printed index maps over the 64 grid points: windows 0, 2, 4 and 5 sit at block row `t` (the point's one
    coordinate), block column 0; windows 1 and 3 at block (0, 0). -/
theorem idx_facts : ∀ t : Fin cfg0.N,
    ((grid0.coords t) 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Window 0's block at point `t`: entry `(a, k)` is entry `k` of embedding row `128 t + a`. -/
theorem tile_rows_apply (c : Dev nD) (t : Fin cfg0.N) (a : Fin 128) (k : Fin 256) :
    (iblk m c 0 t : Vec Ideal S128x256 .bf16) (ix2 a k) = eArr m c (row (grid0.coords t) a) k := by
  obtain ⟨ec, e00, e01, -⟩ := idx_facts t
  refine Eq.trans ?_ (embeddings_array_apply m c (row (grid0.coords t) a) k)
  show V m c main_v8 (((cfg0.win 0).blk t).view.emb (ix2 a k)) = V m c main_v8 _
  congr 1
  funext d; apply Fin.ext
  match d with
  | ⟨0, _⟩ => show win0_0.index t (0 : Fin 2) * 128 + 1 * a.val = 128 * ((grid0.coords t) 0).val + a.val; omega
  | ⟨1, _⟩ => show win0_0.index t (1 : Fin 2) * 256 + 1 * k.val = k.val; omega

/-- Window 1's block at every point is the whole embedding matrix. -/
theorem all_rows_apply (c : Dev nD) (t : Fin cfg0.N) (b : Fin 8192) (k : Fin 256) :
    (iblk m c 1 t : Vec Ideal S8192x256 .bf16) (ix2 b k) = eArr m c b k := by
  obtain ⟨-, -, -, e10, e11, -⟩ := idx_facts t
  refine Eq.trans ?_ (embeddings_array_apply m c b k)
  show V m c main_v8 (((cfg0.win 1).blk t).view.emb (ix2 b k)) = V m c main_v8 _
  congr 1
  funext d; apply Fin.ext
  match d with
  | ⟨0, _⟩ => show win0_1.index t (0 : Fin 2) * 8192 + 1 * b.val = b.val; omega
  | ⟨1, _⟩ => show win0_1.index t (1 : Fin 2) * 256 + 1 * k.val = k.val; omega

/-- Window 2's block at point `t`: entry `(a, 0)` is the label of row `128 t + a`. -/
theorem tile_labels_apply (c : Dev nD) (t : Fin cfg0.N) (a : Fin 128) :
    (iblk m c 2 t : Vec Ideal S128x1 .i32) (ix2 a (0 : Fin 1)) = labArr m c (row (grid0.coords t) a) := by
  obtain ⟨ec, -, -, -, -, e20, e21, -⟩ := idx_facts t
  refine Eq.trans ?_ (label_column_array_apply m c (row (grid0.coords t) a))
  show V m c main_v9 (((cfg0.win 2).blk t).view.emb (ix2 a (0 : Fin 1))) = V m c main_v9 _
  congr 1
  funext d; apply Fin.ext
  match d with
  | ⟨0, _⟩ => show win0_2.index t (0 : Fin 2) * 128 + 1 * a.val = 128 * ((grid0.coords t) 0).val + a.val; omega
  | ⟨1, _⟩ => show win0_2.index t (1 : Fin 2) * 1 + 1 * 0 = 0; omega

/-- Window 3's block at every point is the whole label row. -/
theorem all_labels_apply (c : Dev nD) (t : Fin cfg0.N) (b : Fin 8192) :
    (iblk m c 3 t : Vec Ideal S1x8192 .i32) (ix2 (0 : Fin 1) b) = labArr m c b := by
  obtain ⟨-, -, -, -, -, -, -, e30, e31, -⟩ := idx_facts t
  refine Eq.trans ?_ (label_row_array_apply m c b)
  show V m c main_v10 (((cfg0.win 3).blk t).view.emb (ix2 (0 : Fin 1) b)) = V m c main_v10 _
  congr 1
  funext d; apply Fin.ext
  match d with
  | ⟨0, _⟩ => show win0_3.index t (0 : Fin 2) * 1 + 1 * 0 = 0; omega
  | ⟨1, _⟩ => show win0_3.index t (1 : Fin 2) * 8192 + 1 * b.val = b.val; omega

end Cert.KernelIdeal.KerValue

end
-- ==== Proof.KerValueTail.lean ====
/-
  The closing stretch of the kernel's program, read as one term.

  After the region the program sums each of the two result arrays over both axes, compares the summed count with zero,
  takes the larger of the count and one, divides the summed loss by it, and keeps the quotient where the count is positive
  (zero otherwise).  Run from ANY buffer contents, the last buffer written therefore holds `Tri.kerTail` of whatever the
  two result arrays hold; at the region-exit contents they hold what the write-backs of all 64 grid points left.
-/
import proofs.«144402_j40114994544729_1_alg».proof.Proof.FrameI2
import proofs.«144402_j40114994544729_1_alg».proof.Proof.SpecNorm
import Idealize.ShloMosaic.Lib.StableHlo.Run

set_option maxRecDepth 16384

noncomputable section

namespace Cert.KernelIdeal.KerValue

open Cert.KernelIdeal Cert.KernelIdeal.Gen Cert.KernelIdeal.Fr
open Idealize.ShloMosaic Idealize.ShloMosaic.TcCoe Idealize.SL.Sem

/-- The closing stretch from arbitrary contents `W`: the result buffer ends at the mean-of-positive-losses term of the two
    result arrays as `W` has them: of `W` the stretch reads those two arrays and nothing else. -/
theorem tail_of_contents (W : Valuation τ sig (Elt Ideal)) :
    StableHlo.after ((tailOps (F := Ideal)).flatten) W (Proc.devRef .tc main_v17)
      = Tri.kerTail reducesTo_S8192x1_S_d0_1 h_S_
          (W (Proc.devRef .tc main_v11_0)) (W (Proc.devRef .tc main_v11_1)) := by
  dsimp only [tailOps]
  simp only [hostOps1, hostOps1_1, List.flatten_cons, List.flatten_nil, List.append_nil, List.cons_append, List.nil_append]
  after_results
  rfl

variable (m : (ℓ : Loc nD τ sig) → Buf (Elt Ideal) ℓ)

/-- At the region's exit the two result arrays are what the 64 write-backs left of each output window. -/
theorem tail_at_exit (c : Dev nD) :
    StableHlo.after ((tailOps (F := Ideal)).flatten) (W1 m c) (Proc.devRef .tc main_v17)
      = Tri.kerTail reducesTo_S8192x1_S_d0_1 h_S_
          ((dats m 0 c).arrAt 4 cfg0.N) ((dats m 0 c).arrAt 5 cfg0.N) :=
  (tail_of_contents (W1 m c)).trans (by rw [W1_v11_0, W1_v11_1])

end Cert.KernelIdeal.KerValue

end
-- ==== Proof.KerValue.lean ====
/-
  The kernel's program at the extended reals, from the region's exit to the specification's kernel form.

  At grid point `t` the body stores, over the whole 128-by-1 staging buffer of each output window, the tile's row sums and
  the tile's row counts of positive entries; the tile is built from the four input blocks, which are rows
  `128 t … 128 t + 127` of the normalised embeddings, all of them, and the matching labels.  So what point `t` writes back
  is rows `128 t … 128 t + 127` of the specification's per-row loss (respectively per-row count).  The 64 blocks of 128 rows
  cover the 8192 rows — row `r` lies in the block of point `r / 128` — so each result array ends holding the whole
  per-row function, and the closing stretch turns the two into the specification's mean of the positive losses.
-/
import proofs.«144402_j40114994544729_1_alg».proof.Proof.KerValueIn
import proofs.«144402_j40114994544729_1_alg».proof.Proof.KerValueTail

set_option maxRecDepth 16384

noncomputable section

namespace Cert.KernelIdeal.KerValue

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.KernelIdeal.PayValue (row row_val pay1_apply pay2_apply)

variable (m : (ℓ : Loc nD τ sig) → Buf (Elt Ideal) ℓ)

theorem zero_offsets : (![0, 0] : Fin 2 → Nat) = fun _ => 0 := funext fun a => by fin_cases a <;> rfl

/-! ## What a point writes back -/

/-- Point `t` writes back, to the row-sum array, block `t` of the per-row loss. -/
theorem rowSums_written (c : Dev nD) (t : Fin cfg0.N) :
    (dats m 0 c).flushed 4 t
      = ((cfg0.win 4).blk t).view.read (Elt Ideal) (Tri.rowSumV (eArr m c) (labArr m c)) := by
  show (cfg0.win 4).cut (grid0.coords t) ((dats m 0 c).after 4 t) = _
  rw [after0_4]
  unfold out0_4 tile
  rw [View.canon_unit_zero zero_offsets]
  simp only [View.ld_unit_zero (S := S128x256) zero_offsets, View.ld_unit_zero (S := S8192x256) zero_offsets,
    View.ld_unit_zero (S := S128x1) zero_offsets, View.ld_unit_zero (S := S1x8192) zero_offsets]
  funext j
  obtain ⟨a, u, rfl⟩ : ∃ (a : Fin 128) (u : Fin 1), j = ix2 a u := ⟨j 0, j 1, eq_ix2 j⟩
  obtain rfl : u = 0 := Subsingleton.elim _ _
  show k0_pay1 (F := Ideal) (k0_pay3 (grid0.coords t) (iblk m c 0 t) (iblk m c 1 t) (iblk m c 2 t) (iblk m c 3 t)) (ix2 a (0 : Fin 1))
      = Tri.rowSumV (eArr m c) (labArr m c) (((cfg0.win 4).blk t).view.emb (ix2 a (0 : Fin 1)))
  refine (pay1_apply (grid0.coords t) (iblk m c 0 t) (iblk m c 1 t) (iblk m c 2 t) (iblk m c 3 t) (eArr m c) (labArr m c)
    (tile_rows_apply m c t) (all_rows_apply m c t) (tile_labels_apply m c t) (all_labels_apply m c t) a).trans ?_
  obtain ⟨ec, -, -, -, -, -, -, -, -, e40, e41, -⟩ := idx_facts t
  show Tri.rowSum (eArr m c) (labArr m c) (row (grid0.coords t) a) = Tri.rowSum (eArr m c) (labArr m c) ⟨_, _⟩
  congr 1
  apply Fin.ext
  show 128 * ((grid0.coords t) 0).val + a.val = win0_4.index t (0 : Fin 2) * 128 + 1 * a.val
  omega

/-- Point `t` writes back, to the row-count array, block `t` of the per-row count of positive losses. -/
theorem rowCnts_written (c : Dev nD) (t : Fin cfg0.N) :
    (dats m 0 c).flushed 5 t
      = ((cfg0.win 5).blk t).view.read (Elt Ideal) (Tri.rowCntV (eArr m c) (labArr m c)) := by
  show (cfg0.win 5).cut (grid0.coords t) ((dats m 0 c).after 5 t) = _
  rw [after0_5]
  unfold out0_5 tile
  rw [View.canon_unit_zero zero_offsets]
  simp only [View.ld_unit_zero (S := S128x256) zero_offsets, View.ld_unit_zero (S := S8192x256) zero_offsets,
    View.ld_unit_zero (S := S128x1) zero_offsets, View.ld_unit_zero (S := S1x8192) zero_offsets]
  funext j
  obtain ⟨a, u, rfl⟩ : ∃ (a : Fin 128) (u : Fin 1), j = ix2 a u := ⟨j 0, j 1, eq_ix2 j⟩
  obtain rfl : u = 0 := Subsingleton.elim _ _
  show k0_pay2 (F := Ideal) (k0_pay3 (grid0.coords t) (iblk m c 0 t) (iblk m c 1 t) (iblk m c 2 t) (iblk m c 3 t))
        (Scalar.ofBits (F := Ideal) .f32 0x00000000#32) (ix2 a (0 : Fin 1))
      = Tri.rowCntV (eArr m c) (labArr m c) (((cfg0.win 5).blk t).view.emb (ix2 a (0 : Fin 1)))
  refine (pay2_apply (grid0.coords t) (iblk m c 0 t) (iblk m c 1 t) (iblk m c 2 t) (iblk m c 3 t) (eArr m c) (labArr m c)
    (tile_rows_apply m c t) (all_rows_apply m c t) (tile_labels_apply m c t) (all_labels_apply m c t) a).trans ?_
  obtain ⟨ec, -, -, -, -, -, -, -, -, -, -, e50, e51⟩ := idx_facts t
  show Tri.rowCnt (eArr m c) (labArr m c) (row (grid0.coords t) a) = Tri.rowCnt (eArr m c) (labArr m c) ⟨_, _⟩
  congr 1
  apply Fin.ext
  show 128 * ((grid0.coords t) 0).val + a.val = win0_5.index t (0 : Fin 2) * 128 + 1 * a.val
  omega

/-! ## The blocks cover the rows -/

/-- An index of the row-sum array is in point `t`'s block iff each coordinate is in the block's range on its axis. -/
theorem mem_rowSums_block (t : Fin cfg0.N) (i : S8192x1.Idx) :
    i ∈ ((cfg0.win 4).blk t).view.set ↔ ∀ a : Fin 2, win0_4.index t a * S128x1.size a ≤ (i a).val
      ∧ (i a).val < win0_4.index t a * S128x1.size a + S128x1.size a := by
  show i ∈ ((View.whole main_v11_0).slice (win0_4.rect t)).set ↔ _
  rw [View.set_slice_whole, Rect.mem_set_unit]
  exact Iff.rfl

/-- The same for the row-count array. -/
theorem mem_rowCnts_block (t : Fin cfg0.N) (i : S8192x1.Idx) :
    i ∈ ((cfg0.win 5).blk t).view.set ↔ ∀ a : Fin 2, win0_5.index t a * S128x1.size a ≤ (i a).val
      ∧ (i a).val < win0_5.index t a * S128x1.size a + S128x1.size a := by
  show i ∈ ((View.whole main_v11_1).slice (win0_5.rect t)).set ↔ _
  rw [View.set_slice_whole, Rect.mem_set_unit]
  exact Iff.rfl

/-- Row `r` of the row-sum array lies in the block of point `r / 128`, which writes back. -/
theorem rowSums_cover (i : S8192x1.Idx) :
    ∃ t : Fin cfg0.N, (cfg0.win 4).flush t = true ∧ i ∈ ((cfg0.win 4).blk t).view.set := by
  have h0 : (i 0).val < 8192 := (i 0).isLt
  have h1 : (i 1).val < 1 := (i 1).isLt
  have hN : (i 0).val / 128 < cfg0.N := by show _ < grid0.N; rw [N_0]; omega
  obtain ⟨-, -, -, -, -, -, -, -, -, e40, e41, -⟩ := idx_facts ⟨(i 0).val / 128, hN⟩
  have e40' : win0_4.index ⟨(i 0).val / 128, hN⟩ (0 : Fin 2) = (i 0).val / 128 := e40
  refine ⟨⟨(i 0).val / 128, hN⟩, flush0_4 _, ?_⟩
  rw [mem_rowSums_block]
  intro a
  match a with
  | ⟨0, _⟩ =>
    show win0_4.index ⟨(i 0).val / 128, hN⟩ (0 : Fin 2) * 128 ≤ (i 0).val
      ∧ (i 0).val < win0_4.index ⟨(i 0).val / 128, hN⟩ (0 : Fin 2) * 128 + 128
    omega
  | ⟨1, _⟩ =>
    show win0_4.index ⟨(i 0).val / 128, hN⟩ (1 : Fin 2) * 1 ≤ (i 1).val
      ∧ (i 1).val < win0_4.index ⟨(i 0).val / 128, hN⟩ (1 : Fin 2) * 1 + 1
    omega

/-- The same for the row-count array. -/
theorem rowCnts_cover (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  have hN : (i 0).val / 128 < cfg0.N := by show _ < grid0.N; rw [N_0]; omega
  obtain ⟨-, -, -, -, -, -, -, -, -, -, -, e50, e51⟩ := idx_facts ⟨(i 0).val / 128, hN⟩
  have e50' : win0_5.index ⟨(i 0).val / 128, hN⟩ (0 : Fin 2) = (i 0).val / 128 := e50
  refine ⟨⟨(i 0).val / 128, hN⟩, flush0_5 _, ?_⟩
  rw [mem_rowCnts_block]
  intro a
  match a with
  | ⟨0, _⟩ =>
    show win0_5.index ⟨(i 0).val / 128, hN⟩ (0 : Fin 2) * 128 ≤ (i 0).val
      ∧ (i 0).val < win0_5.index ⟨(i 0).val / 128, hN⟩ (0 : Fin 2) * 128 + 128
    omega
  | ⟨1, _⟩ =>
    show win0_5.index ⟨(i 0).val / 128, hN⟩ (1 : Fin 2) * 1 ≤ (i 1).val
      ∧ (i 1).val < win0_5.index ⟨(i 0).val / 128, hN⟩ (1 : Fin 2) * 1 + 1
    omega

/-! ## The result arrays, and the program's result -/

/-- After all 64 write-backs the row-sum array holds every row's loss. -/
theorem rowSums_final (c : Dev nD) : (dats m 0 c).arrAt 4 cfg0.N = Tri.rowSumV (eArr m c) (labArr m c) :=
  (dats m 0 c).arrAt_eq_of_cover 4 (Tri.rowSumV (eArr m c) (labArr m c)) (fun t _ => rowSums_written m c t) rowSums_cover

/-- After all 64 write-backs the row-count array holds every row's count of positive losses. -/
theorem rowCnts_final (c : Dev nD) : (dats m 0 c).arrAt 5 cfg0.N = Tri.rowCntV (eArr m c) (labArr m c) :=
  (dats m 0 c).arrAt_eq_of_cover 5 (Tri.rowCntV (eArr m c) (labArr m c)) (fun t _ => rowCnts_written m c t) rowCnts_cover

/-- The kernel's program ends with the specification's kernel form of the normalised embeddings and the labels: the
    per-row losses and per-row counts summed, and their quotient where the count is positive. -/
theorem out_eq (c : Dev nD) :
    StableHlo.after ((Cert.KernelIdeal.Fr.tailOps (F := Ideal)).flatten) (Cert.KernelIdeal.Fr.W1 m c) (Proc.devRef .tc main_v17)
      = Tri.kerTail reducesTo_S8192x1_S_d0_1 h_S_
          (Tri.rowSumV
            (Tri.eOf (Tri.normV reducesTo_S8192x256_S8192_d1 h_S_ bcast_S8192_S8192x1_0 bcast_S_S8192x1
              bcast_S8192x1_S8192x256_0_1 (m ((c.tc : Thread nD τ).loc main_arg0))))
            (Tri.labOf (m ((c.tc : Thread nD τ).loc main_arg1))))
          (Tri.rowCntV
            (Tri.eOf (Tri.normV reducesTo_S8192x256_S8192_d1 h_S_ bcast_S8192_S8192x1_0 bcast_S_S8192x1
              bcast_S8192x1_S8192x256_0_1 (m ((c.tc : Thread nD τ).loc main_arg0))))
            (Tri.labOf (m ((c.tc : Thread nD τ).loc main_arg1)))) :=
  (tail_at_exit m c).trans (by rw [rowSums_final, rowCnts_final])

end Cert.KernelIdeal.KerValue

end
-- ==== Proof.RefValueLemmas.lean ====
/-
  Small facts the reading of the reference's loss matrix uses: a minimum folded from +∞ is an infimum; the one-bit
  words of the two masks (labels agree, off the diagonal) decoded; row and column numbers below 8192 compared as
  32-bit words; the row of a matrix re-indexed through the reduction's lift.
-/
import Idealize.ShloMosaic.PureOps.Ideal
import Idealize.ShloMosaic.PureOps.Reduce
import Idealize.ShloMosaic.Lib.ValueIdx
import Idealize.ShloMosaic.Lib.StableHlo.Predicate
import Mathlib.Data.Finset.Fold
import Mathlib.Data.Finset.Lattice.Fold

noncomputable section

namespace Cert.ReferenceIdeal.RefValue

open Idealize.ShloMosaic Idealize.ShloMosaic.ValueIdx

/-- A minimum folded from +∞ over a finite set is the infimum over it. -/
theorem fold_min_top {ι : Type} (s : Finset ι) (f : ι → EReal) : s.fold min ⊤ f = s.inf f := by
  refine eq_of_forall_le_iff fun c => ?_
  rw [Finset.le_fold_min, Finset.le_inf_iff]
  exact ⟨fun h => h.2, fun h => ⟨le_top, h⟩⟩

/-- The word 0x7F800000 is +∞. -/
theorem ofBits_inf : Ideal.ofBits .f32 0x7F800000#32 = (⊤ : EReal) := by
  simp [Ideal.ofBits, Ideal.ieee]

/-- Two numbers below 8192 are equal exactly when their 32-bit words, the first plus the zero word, compare equal. -/
theorem diag_iff (a b : Nat) (ha : a < 8192) (hb : b < 8192) :
    IntOp.cmpi .eq (IntOp.addi (BitVec.ofNat 32 a) 0#32) (BitVec.ofNat 32 b) = 1#1 ↔ a = b := by
  rw [StableHlo.Predicate.cmpi_eq_iff]
  unfold IntOp.addi
  rw [BitVec.add_zero]
  constructor
  · intro h
    have := congrArg BitVec.toNat h
    simp only [BitVec.toNat_ofNat] at this
    omega
  · intro h; rw [h]

/-- The complement of a one-bit word is one exactly when the word is not. -/
theorem not_bit_iff (q : BitVec 1) : ~~~q = 1#1 ↔ ¬ q = 1#1 := by
  rcases BitVec.eq_zero_or_eq_one q with h | h <;> subst h <;> decide

/-- The conjunction of a one-bit word with the complement of another is one exactly when the first is and the second is not. -/
theorem and_not_bit_iff (p q : BitVec 1) : IntOp.andi p (~~~q) = 1#1 ↔ p = 1#1 ∧ ¬ q = 1#1 := by
  rcases BitVec.eq_zero_or_eq_one p with h | h <;> rcases BitVec.eq_zero_or_eq_one q with h' | h' <;> subst h <;> subst h' <;> decide

/-- Row `r` of an 8192 by 8192 matrix with column `k` put back is the entry (r, k). -/
theorem lift_row (h : (⟨2, ![8192, 8192]⟩ : Shape).Reduces [1] (⟨1, ![8192]⟩ : Shape)) (r : Fin 8192)
    (k : Fin ((⟨2, ![8192, 8192]⟩ : Shape).size 1)) :
    h.lift (ix1 r) k = ix2 r (⟨k.val, k.isLt⟩ : Fin 8192) := by
  funext c; apply Fin.ext
  fin_cases c <;> rfl

end Cert.ReferenceIdeal.RefValue

end
-- ==== Proof.RefValue.lean ====
/-
  The reference's result is the specification's reference form.

  Read operation by operation at an entry (r, b) of the 8192 by 8192 matrices, the reference computes: the inner
  product of the normalised rows r and b (the contraction of the row-normalised embeddings with their transpose); the
  distance max 0 (1 - that); the mask "labels agree" (it compares label b with label r: symmetric) and the mask
  "r = b" (the two coordinate numbers compared as 32-bit words of numbers below 8192); for the closest negative the
  minimum over the row, from +∞, of the distance where the labels differ and of 1e9 where they agree: an infimum;
  then max (distance - closest + 1) 0 where the labels agree off the diagonal, and 0 elsewhere.  That is `Tri.lossAt`
  entry by entry, so the loss matrix is `Tri.lossM`; the operations after it (count of the positive entries, their
  sum, the guarded mean) are `Tri.refTail` of it and are never opened.  The first operations, up to the division, are
  `Tri.normV` of the first argument and stay folded as that one function.
-/
import proofs.«144402_j40114994544729_1_alg».proof.Proof.RefRead
import proofs.«144402_j40114994544729_1_alg».proof.Proof.SpecNorm
import proofs.«144402_j40114994544729_1_alg».proof.Proof.RefValueLemmas

noncomputable section

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

variable (x0 : (⟨S8192x256, .f32⟩ : BufTy).Contents (Elt Ideal)) (x1 : (⟨S8192, .i32⟩ : BufTy).Contents (Elt Ideal))

/-- The row-normalised embeddings the reference computes with, read by row and column. -/
abbrev eR : Fin 8192 → Fin 256 → EReal :=
  Tri.eOf (Tri.normV reducesTo_S8192x256_S8192_d1 h_S_ bcast_S8192_S8192x1_0 bcast_S_S8192x1 bcast_S8192x1_S8192x256_0_1 x0)

/-- The labels read by row. -/
abbrev labR : Fin 8192 → BitVec 32 := Tri.labOf x1

/-- The row and the column of an entry of the matrices. -/
abbrev rowOf (i : S8192x8192.Idx) : Fin 8192 := ⟨(i 0).val, (i 0).isLt⟩
abbrev colOf (i : S8192x8192.Idx) : Fin 8192 := ⟨(i 1).val, (i 1).isLt⟩

/-- The first operations, up to the division, are the shared row-normalisation. -/
theorem v7_eq : val_main_v7 (F := Ideal) x0
    = Tri.normV reducesTo_S8192x256_S8192_d1 h_S_ bcast_S8192_S8192x1_0 bcast_S_S8192x1 bcast_S8192x1_S8192x256_0_1 x0 := by
  unfold val_main_v7 val_main_v6 val_main_v5 val_main_v4 val_main_v3 val_main_v2 val_main_v1 val_main_v0 val_main_cst val_main_cst_0 Tri.normV
  rfl

/-- The contraction at (r, b) is the inner product of the normalised rows r and b. -/
theorem v9_at (i : S8192x8192.Idx) : val_main_v9 (F := Ideal) x0 i = Tri.sim (eR x0) (rowOf i) (colOf i) := by
  rw [val_main_v9_apply]
  unfold Tri.sim
  refine Finset.sum_congr rfl fun k _ => ?_
  rw [val_main_v8_apply, v7_eq]
  show _ = Tri.normV _ _ _ _ _ x0 (ix2 (rowOf i) k) * Tri.normV _ _ _ _ _ x0 (ix2 (colOf i) k)
  refine congrArg₂ (· * ·) (congrArg _ ?_) (congrArg _ ?_)
  · funext a; match a with | ⟨0, _⟩ => rfl | ⟨1, _⟩ => rfl
  · funext a; match a with | ⟨0, _⟩ => rfl | ⟨1, _⟩ => rfl

/-- The clamped distance at (r, b). -/
theorem v12_at (i : S8192x8192.Idx) : val_main_v12 (F := Ideal) x0 i = Tri.dist (eR x0) (rowOf i) (colOf i) := by
  rw [val_main_v12_apply, val_main_v11_apply, v9_at, val_main_call0_v1_apply, val_main_v10_apply]
  rfl

/-- The mask "labels agree" at (r, b): label b compared with label r. -/
theorem v17_at (i : S8192x8192.Idx) :
    val_main_v17 (F := Ideal) x1 i = IntOp.cmpi .eq (labR x1 (colOf i)) (labR x1 (rowOf i)) := by
  rw [val_main_v17_apply, val_main_v15_apply, val_main_v13_apply, val_main_v16_apply, val_main_v14_apply]
  show IntOp.cmpi .eq (x1 _) (x1 _) = IntOp.cmpi .eq (x1 (ix1 (colOf i))) (x1 (ix1 (rowOf i)))
  refine congrArg₂ (IntOp.cmpi .eq) (congrArg x1 ?_) (congrArg x1 ?_)
  · funext a; match a with | ⟨0, _⟩ => rfl
  · funext a; match a with | ⟨0, _⟩ => rfl

/-- The mask "labels agree" is one exactly when they do. -/
theorem v17_iff (i : S8192x8192.Idx) : val_main_v17 (F := Ideal) x1 i = 1#1 ↔ labR x1 (rowOf i) = labR x1 (colOf i) := by
  rw [v17_at, StableHlo.Predicate.cmpi_eq_iff]; exact eq_comm

/-- The mask "r = b", before its complement, is one exactly on the diagonal. -/
theorem v22_iff (i : S8192x8192.Idx) : val_main_v22 (F := Ideal) i = 1#1 ↔ rowOf i = colOf i := by
  rw [val_main_v22_apply, val_main_v21_apply, val_main_v18_apply, val_main_v19_apply, val_main_v20_apply, val_main_c_apply]
  rw [diag_iff _ _ (i 0).isLt (i 1).isLt]
  exact ⟨fun h => Fin.ext h, fun h => congrArg Fin.val h⟩

/-- The entry (r, b) of the matrix the row minimum is taken of: the distance where the labels differ, 1e9 where they agree. -/
theorem v26_at (i : S8192x8192.Idx) :
    val_main_v26 (F := Ideal) x0 x1 i = Tri.negd (eR x0) (labR x1) (rowOf i) (colOf i) := by
  rw [val_main_v26_apply, val_main_v25_apply, v12_at, val_main_call1_v1_apply]
  unfold Tri.negd
  by_cases h : labR x1 (rowOf i) = labR x1 (colOf i)
  · have hb : ~~~(val_main_v17 (F := Ideal) x1 i) = 0#1 :=
      eq_zero_of_ne_one ((not_bit_iff _).not.2 (not_not.2 ((v17_iff x1 i).2 h)))
    rw [hb, select_zero, if_pos h]; rfl
  · have hb : ~~~(val_main_v17 (F := Ideal) x1 i) = 1#1 := (not_bit_iff _).2 (fun hh => h ((v17_iff x1 i).1 hh))
    rw [hb, select_one, if_neg h]

/-- The row axis of the square matrices reduces onto the rows. -/
theorem hRed : S8192x8192.Reduces [1] S8192 := by decide

/-- The row minimum from +∞ at r is the closest negative of r. -/
theorem v27_at (r : Fin 8192) : val_main_v27 (F := Ideal) x0 x1 (ix1 r) = Tri.hardest (eR x0) (labR x1) r := by
  have key := Host.reduce_eq_fold_single (α := Ideal .f32) (FloatOps.minimumf (F := Ideal) (φ := .f32))
    (val_main_v26 (F := Ideal) x0 x1) (val_main_cst_4 (F := Ideal)) reducesTo_S8192x8192_S8192_d1 hRed h_S_ (ix1 r)
  unfold val_main_v27 Tri.hardest
  refine key.trans ?_
  have h0 : val_main_cst_4 (F := Ideal) (Shape.Idx.first h_S_) = (⊤ : EReal) := ofBits_inf
  rw [h0]
  have hf : (val_main_v26 (F := Ideal) x0 x1 ∘ hRed.lift (ix1 r)) = fun k : Fin 8192 => Tri.negd (eR x0) (labR x1) r k := by
    funext k
    show val_main_v26 (F := Ideal) x0 x1 (hRed.lift (ix1 r) k) = _
    rw [lift_row hRed r k, v26_at]
    rfl
  rw [hf]
  exact fold_min_top Finset.univ _

/-- The broadcast of the row minima at (r, b) is the closest negative of r. -/
theorem v29_at (i : S8192x8192.Idx) :
    val_main_v29 (F := Ideal) x0 x1 i = Tri.hardest (eR x0) (labR x1) (rowOf i) := by
  rw [val_main_v29_apply, val_main_v28_apply, ← v27_at]
  refine congrArg _ ?_
  funext a; match a with | ⟨0, _⟩ => rfl

/-- The loss matrix at (r, b) is the pair's loss. -/
theorem v34_at (i : S8192x8192.Idx) :
    val_main_v34 (F := Ideal) x0 x1 i = Tri.lossAt (eR x0) (labR x1) (rowOf i) (colOf i) := by
  rw [val_main_v34_apply, val_main_v33_apply, val_main_v32_apply, val_main_v30_apply, v12_at, v29_at,
    val_main_v31_apply, val_main_call2_v0_apply, val_main_call3_v1_apply, val_main_v24_apply, val_main_v23_apply]
  unfold Tri.lossAt
  by_cases h : labR x1 (rowOf i) = labR x1 (colOf i) ∧ rowOf i ≠ colOf i
  · have hb : IntOp.andi (val_main_v17 (F := Ideal) x1 i) (~~~(val_main_v22 (F := Ideal) i)) = 1#1 :=
      (and_not_bit_iff _ _).2 ⟨(v17_iff x1 i).2 h.1, fun hh => h.2 ((v22_iff i).1 hh)⟩
    rw [hb, select_one, if_pos h]; rfl
  · have hb : IntOp.andi (val_main_v17 (F := Ideal) x1 i) (~~~(val_main_v22 (F := Ideal) i)) = 0#1 :=
      eq_zero_of_ne_one (fun hh => h ⟨(v17_iff x1 i).1 ((and_not_bit_iff _ _).1 hh).1,
        fun he => ((and_not_bit_iff _ _).1 hh).2 ((v22_iff i).2 he)⟩)
    rw [hb, select_zero, if_neg h]; rfl

/-- The reference's loss matrix is the specification's. -/
theorem v34_eq : val_main_v34 (F := Ideal) x0 x1 = Tri.lossM (eR x0) (labR x1) := funext fun i => v34_at x0 x1 i

/-- The operations after the loss matrix are the specification's closing steps applied to it. -/
theorem v44_eq_tail : val_main_v44 (F := Ideal) x0 x1
    = Tri.refTail bcast_S_S8192x8192 reducesTo_S8192x8192_S_d0_1 h_S_ natLt_1_32 (val_main_v34 (F := Ideal) x0 x1) := by
  unfold val_main_v44 val_main_v43 val_main_v42 val_main_v41 val_main_v40 val_main_v39 val_main_v38 val_main_v37 val_main_v36
    val_main_v35 val_main_call4_v0 val_main_cst_12 val_main_c_11 val_main_c_10 val_main_cst_9 val_main_c_8 val_main_cst_7 Tri.refTail
  generalize val_main_v34 (F := Ideal) x0 x1 = L
  rfl

/-- The reference's last stage is the specification's reference form. -/
theorem v44_eq : val_main_v44 (F := Ideal) x0 x1
    = Tri.refTail bcast_S_S8192x8192 reducesTo_S8192x8192_S_d0_1 h_S_ natLt_1_32 (Tri.lossM (eR x0) (labR x1)) := by
  rw [v44_eq_tail, v34_eq]

/-- The reference's result is the specification's reference form of the loss matrix of the normalised first argument and
    the second argument's labels. -/
theorem res_eq (m : (ℓ : Loc nD τ sig) → Buf (Elt Ideal) ℓ) (c : Dev nD) :
    Cert.ReferenceIdeal.ValueP.res_out0 (F := Ideal) m c
      = Tri.refTail bcast_S_S8192x8192 reducesTo_S8192x8192_S_d0_1 h_S_ natLt_1_32
          (Tri.lossM (Tri.eOf (Tri.normV reducesTo_S8192x256_S8192_d1 h_S_ bcast_S8192_S8192x1_0 bcast_S_S8192x1 bcast_S8192x1_S8192x256_0_1 (m ((c.tc : Thread nD τ).loc main_arg0))))
                     (Tri.labOf (m ((c.tc : Thread nD τ).loc main_arg1)))) :=
  (val_main_v44_eq (F := Ideal) m c).trans (v44_eq (m ((c.tc : Thread nD τ).loc main_arg0)) (m ((c.tc : Thread nD τ).loc main_arg1)))

end Cert.ReferenceIdeal.RefValue

end
-- ==== Proof.LibCount.lean ====
/-
  Counting the set bits of a mask by a 32-bit integer sum over EVERY axis.

  A one-bit mask widened to 32 bits holds the words 0 and 1. Their sum by word addition from the word 0, taken over all
  the indices of the mask (a reduction into a shape all of whose axes have size one, so every index reduces into the one
  result), is the NUMBER of set bits, as long as the mask has fewer than 2^32 indices: no partial sum can wrap.
  Companion of the one-axis counts of a rectangle (along its rows or its columns).
-/
import Idealize.ShloMosaic.PureOps.Reduce
import Idealize.ShloMosaic.Lib.StableHlo.Predicate

namespace Idealize.ShloMosaic.Host

open Idealize.ShloMosaic

variable {s t u : Shape} {axes : List (Fin s.rank)}

/-- OVER ALL AXES: summing the widened bits of a mask into a result whose axes all have size one gives the number of
    indices whose bit is set (the mask has fewer than 2^32 indices, so the count does not wrap). -/
theorem toNat_reduce_count_all (mask : IVec s 1) (hw : 1 < 32) (h : s.ReducesTo axes t) (ht : ∀ b, t.size b = 1)
    (hu : 0 < u.numel) (hs : Fintype.card s.Idx < 2 ^ 32) (j : t.Idx) :
    (Host.reduce IntOp.addi (extui 32 mask hw) (constantI u 32 0#32) h hu j).toNat
      = (Finset.univ.filter (fun i : s.Idx => mask i = 1#1)).card := by
  classical
  rw [Host.reduce_eq_fold]
  -- every index reduces into the one result index
  have hall : (Finset.univ.filter fun i : s.Idx => h.drop i = j) = Finset.univ :=
    Finset.filter_true_of_mem fun i _ => funext fun b => Fin.ext (by
      have := (h.drop i b).isLt; have := (j b).isLt; have := ht b; omega)
  rw [hall]
  have hval : ∀ i, (extui 32 mask hw i).toNat = if mask i = 1#1 then 1 else 0 :=
    fun i => StableHlo.Predicate.toNat_setWidth_bit (mask i)
  have hsum : ∑ i : s.Idx, (extui 32 mask hw i).toNat = (Finset.univ.filter (fun i : s.Idx => mask i = 1#1)).card := by
    rw [Finset.card_filter]
    exact Finset.sum_congr rfl fun i _ => hval i
  show (Finset.fold IntOp.addi 0#32 (extui 32 mask hw) Finset.univ).toNat = _
  rw [StableHlo.Predicate.toNat_fold_addi _ _ (by rw [hsum]; exact lt_of_le_of_lt (Finset.card_le_univ _) hs), hsum]

/-- … and that number, being below 2^32, is the word itself. -/
theorem reduce_count_all_eq_ofNat (mask : IVec s 1) (hw : 1 < 32) (h : s.ReducesTo axes t) (ht : ∀ b, t.size b = 1)
    (hu : 0 < u.numel) (hs : Fintype.card s.Idx < 2 ^ 32) (j : t.Idx) :
    Host.reduce IntOp.addi (extui 32 mask hw) (constantI u 32 0#32) h hu j
      = BitVec.ofNat 32 (Finset.univ.filter (fun i : s.Idx => mask i = 1#1)).card := by
  apply BitVec.eq_of_toNat_eq
  rw [toNat_reduce_count_all mask hw h ht hu hs j, BitVec.toNat_ofNat]
  exact (Nat.mod_eq_of_lt (lt_of_le_of_lt (Finset.card_le_univ _) hs)).symm

end Idealize.ShloMosaic.Host
-- ==== Proof.SpecAlg.lean ====
/-
  The algebra between the two closing stretches.

  Both programs end with "the mean of the strictly positive pair losses, zero when there is none". The kernel's
  program sums each row's losses and each row's count of positive losses (a float, a sum of zeros and ones), then sums
  the rows; the reference sums the whole 8192 x 8192 loss matrix at once and counts its positive entries in 32-bit
  integers. Over the extended reals addition is commutative and associative, so both totals are the one double sum
  `total` over all pairs (r, b) (no finiteness of an entry is used). Both counts are the one natural number
  `posCount`, the number of pairs of strictly positive loss: on the kernel's side as the extended real it casts to, on
  the reference's side as a 32-bit word, which cannot wrap because there are only 2^26 pairs. A count below 2^31 reads
  the same signed and unsigned, so "count > 0" and "max count 1" say the same on both sides, and the two closing
  stretches are one expression in `total` and `posCount` (`tail_words`). The statement proved is `Tri.tails_eq`.
-/
import proofs.«144402_j40114994544729_1_alg».proof.Proof.Spec
import proofs.«144402_j40114994544729_1_alg».proof.Proof.LibCount
import Idealize.ShloMosaic.PureOps.Ideal.Laws
import Idealize.ShloMosaic.Lib.ValueIdx
import Idealize.ShloMosaic.Lib.IdealHost
import Idealize.ShloMosaic.Lib.StableHlo.Predicate

noncomputable section

namespace Tri

open Idealize.ShloMosaic Idealize.ShloMosaic.ValueIdx

variable (e : Fin 8192 → Fin 256 → EReal) (lab : Fin 8192 → BitVec 32)

/-! ## The two numbers both programs compute -/

/-- The sum of the losses of all pairs. -/
def total : EReal := ∑ r : Fin 8192, ∑ b : Fin 8192, lossAt e lab r b

/-- The number of pairs whose loss is strictly positive. -/
def posCount : ℕ := ∑ r : Fin 8192, ∑ b : Fin 8192, if 0 < lossAt e lab r b then 1 else 0

/-- There are 8192 · 8192 = 2^26 pairs, so the count is at most 2^26. -/
theorem posCount_le : posCount e lab ≤ 2 ^ 26 := by
  unfold posCount
  calc _ ≤ ∑ _r : Fin 8192, ∑ _b : Fin 8192, 1 :=
        Finset.sum_le_sum fun r _ => Finset.sum_le_sum fun b _ => by split_ifs <;> omega
    _ = 2 ^ 26 := by simp

/-- The loss matrix has 2^26 indices, fewer than 2^32. -/
theorem card_idx : Fintype.card SNxN.Idx < 2 ^ 32 := by
  rw [Fintype.card_congr (idxEquiv2 (n0 := 8192) (n1 := 8192)), Fintype.card_prod, Fintype.card_fin]
  norm_num

/-! ## Sums: each side's total is the double sum over the pairs -/

/-- The rows' losses, summed over the [8192, 1] column, are the double sum: the column's second coordinate has one value. -/
theorem sum_rowSumV : ∑ i : SNx1.Idx, rowSumV e lab i = total e lab := by
  rw [sum_idx2]
  unfold total rowSumV rowSum
  refine Finset.sum_congr rfl fun a _ => ?_
  rw [Fin.sum_univ_one]

/-- The loss matrix summed over its index set is the double sum over its two coordinates. -/
theorem sum_lossM : ∑ i : SNxN.Idx, lossM e lab i = total e lab := by
  rw [sum_idx2]
  rfl

/-! ## Counts: the kernel's float count -/

/-- The kernel's indicator is one where its argument is strictly positive and zero elsewhere: the compare's bit, widened
    and read as a signed integer, is 1 or 0. -/
theorem ind_eq (x : EReal) : ind x = ((if 0 < x then 1 else 0 : ℕ) : EReal) := by
  unfold ind Ideal.cmp
  by_cases h : 0 < x
  · simp [h, Ideal.ofBits_zero_f32]
  · simp [h, Ideal.ofBits_zero_f32]

/-- The rows' float counts, summed over the column, are the number of pairs of positive loss (the cast of a natural
    number to the extended reals is additive). -/
theorem sum_rowCntV : ∑ i : SNx1.Idx, rowCntV e lab i = (posCount e lab : EReal) := by
  rw [sum_idx2]
  unfold posCount rowCntV rowCnt
  rw [Nat.cast_sum]
  refine Finset.sum_congr rfl fun a _ => ?_
  rw [Fin.sum_univ_one, Nat.cast_sum]
  exact Finset.sum_congr rfl fun b _ => ind_eq _

/-! ## Counts: the reference's integer count -/

/-- The reference's mask bit at an index is set exactly where the loss there is strictly positive. -/
theorem mask_eq_one_iff (hb : S0.BroadcastsInDim SNxN (![] : Fin 0 → Fin SNxN.rank)) (i : SNxN.Idx) :
    cmpf .ogt (lossM e lab) (broadcastInDim SNxN ![] hb (constant (F := Ideal) S0 .f32 0x00000000#32)) i = 1#1
      ↔ 0 < lossM e lab i := by
  rw [cmpf_apply, broadcastInDim_scalar_apply, constant_apply, Ideal.cmpf_def, Ideal.ofBits_zero_f32]
  unfold Ideal.cmp
  rw [StableHlo.Predicate.ofBool_eq_one_iff, decide_eq_true_eq]

/-- The number of set mask bits is the number of pairs of positive loss. -/
theorem card_mask (hb : S0.BroadcastsInDim SNxN (![] : Fin 0 → Fin SNxN.rank)) :
    (Finset.univ.filter fun i : SNxN.Idx =>
      cmpf .ogt (lossM e lab) (broadcastInDim SNxN ![] hb (constant (F := Ideal) S0 .f32 0x00000000#32)) i = 1#1).card
      = posCount e lab := by
  classical
  rw [Finset.card_filter, sum_idx2]
  unfold posCount
  refine Finset.sum_congr rfl fun a _ => Finset.sum_congr rfl fun b _ => ?_
  exact if_congr (mask_eq_one_iff e lab hb (ix2 a b)) rfl rfl

/-- The reference's 32-bit sum of the widened mask over both axes is that number as a word: 2^26 pairs cannot wrap it. -/
theorem refCount (hb : S0.BroadcastsInDim SNxN (![] : Fin 0 → Fin SNxN.rank)) (hr2 : SNxN.ReducesTo [0, 1] S0)
    (h0 : 0 < S0.numel) (hlt : 1 < 32) (j : S0.Idx) :
    Host.reduce IntOp.addi
        (extui 32 (cmpf .ogt (lossM e lab) (broadcastInDim SNxN ![] hb (constant (F := Ideal) S0 .f32 0x00000000#32))) hlt)
        (constantI S0 32 0#32) hr2 h0 j = BitVec.ofNat 32 (posCount e lab) := by
  rw [Host.reduce_count_all_eq_ofNat _ hlt hr2 (fun b => b.elim0) h0 card_idx j, card_mask]

/-! ## Words: a count below 2^31 compares and maximises as the natural number it is -/

/-- A small count compares above zero, as a signed word, exactly when it is positive. -/
theorem cmpi_sgt_zero_ofNat (n : ℕ) (hn : n < 2 ^ 31) :
    IntOp.cmpi .sgt (BitVec.ofNat 32 n) 0#32 = BitVec.ofBool (decide (0 < n)) := by
  unfold IntOp.cmpi
  show BitVec.ofBool ((0#32).slt (BitVec.ofNat 32 n)) = _
  rw [BitVec.slt, StableHlo.Predicate.toInt_ofNat_small n hn, show (0#32 : BitVec 32).toInt = 0 from by decide]
  congr 1
  exact decide_eq_decide.mpr Nat.cast_pos

/-- The signed maximum of a small count and one, read as an integer, is the maximum of the two numbers. -/
theorem toInt_maxsi_one_ofNat (n : ℕ) (hn : n < 2 ^ 31) :
    (IntOp.maxsi (BitVec.ofNat 32 n) 1#32).toInt = max (n : ℤ) 1 := by
  unfold IntOp.maxsi
  rw [BitVec.slt, StableHlo.Predicate.toInt_ofNat_small n hn, show (1#32 : BitVec 32).toInt = 1 from by decide]
  by_cases h : (1 : ℤ) < n
  · rw [decide_eq_true h, if_pos rfl, StableHlo.Predicate.toInt_ofNat_small n hn]; omega
  · rw [decide_eq_false h, if_neg (by decide), show (1#32 : BitVec 32).toInt = 1 from by decide]; omega

/-! ## The two closing stretches at their one index -/

/-- The kernel's closing stretch at its one index. -/
theorem kerTail_apply (hr : SNx1.ReducesTo [0, 1] S0) (h0 : 0 < S0.numel) (s c : FVec Ideal SNx1 .f32) (j : S0.Idx) :
    kerTail hr h0 s c j
      = Scalar.select
          (Ideal.cmp .ogt (Host.reduceAdd c (constant (F := Ideal) S0 .f32 0x00000000#32) hr h0 j)
            (Ideal.ofBits .f32 0x00000000#32))
          (Ideal.div (Host.reduceAdd s (constant (F := Ideal) S0 .f32 0x00000000#32) hr h0 j)
            (max (Host.reduceAdd c (constant (F := Ideal) S0 .f32 0x00000000#32) hr h0 j)
              (Ideal.ofBits .f32 0x3F800000#32)))
          (Ideal.ofBits .f32 0x00000000#32) := rfl

/-- The reference's closing stretch at its one index. -/
theorem refTail_apply (hb : S0.BroadcastsInDim SNxN (![] : Fin 0 → Fin SNxN.rank)) (hr : SNxN.ReducesTo [0, 1] S0)
    (h0 : 0 < S0.numel) (hlt : 1 < 32) (L : FVec Ideal SNxN .f32) (j : S0.Idx) :
    refTail hb hr h0 hlt L j
      = Scalar.select
          (IntOp.cmpi .sgt
            (Host.reduce IntOp.addi
              (extui 32 (cmpf .ogt L (broadcastInDim SNxN ![] hb (constant (F := Ideal) S0 .f32 0x00000000#32))) hlt)
              (constantI S0 32 0#32) hr h0 j) 0#32)
          (Ideal.div (Host.reduceAdd L (constant (F := Ideal) S0 .f32 0x00000000#32) hr h0 j)
            (((IntOp.maxsi
              (Host.reduce IntOp.addi
                (extui 32 (cmpf .ogt L (broadcastInDim SNxN ![] hb (constant (F := Ideal) S0 .f32 0x00000000#32))) hlt)
                (constantI S0 32 0#32) hr h0 j) 1#32).toInt : ℝ) : EReal))
          (Ideal.ofBits .f32 0x00000000#32) := rfl

/-- A float sum over every axis, from the zero word, is the plain sum of all entries. -/
theorem hostSum_all {s : Shape} {axes : List (Fin s.rank)} (x : FVec Ideal s .f32) (hr : s.ReducesTo axes S0)
    (h0 : 0 < S0.numel) (j : S0.Idx) :
    Host.reduceAdd x (constant (F := Ideal) S0 .f32 0x00000000#32) hr h0 j = ∑ i : s.Idx, x i := by
  rw [hostReduceAdd_apply, Ideal.hostReduceAdd_total hr (fun b => b.elim0), constant_apply, Ideal.ofBits_zero_f32,
    zero_add]

/-- The two closing stretches as functions of a total `T` and a count `n` below 2^31 — the count an extended real on
    the kernel's side, a 32-bit word on the reference's — agree: both are `T / n` where `n` is positive and zero where
    it is not. -/
theorem tail_words (T : EReal) (n : ℕ) (hn : n < 2 ^ 31) :
    Scalar.select (Ideal.cmp .ogt (n : EReal) (Ideal.ofBits .f32 0x00000000#32))
        (Ideal.div T (max (n : EReal) (Ideal.ofBits .f32 0x3F800000#32))) (Ideal.ofBits .f32 0x00000000#32)
      = Scalar.select (IntOp.cmpi .sgt (BitVec.ofNat 32 n) 0#32)
        (Ideal.div T (((IntOp.maxsi (BitVec.ofNat 32 n) 1#32).toInt : ℝ) : EReal)) (Ideal.ofBits .f32 0x00000000#32) := by
  rw [cmpi_sgt_zero_ofNat n hn, toInt_maxsi_one_ofNat n hn, Ideal.ofBits_zero_f32, Ideal.ofBits_one_f32]
  -- the float compare against zero is the bit of "n is positive" too
  have hc : Ideal.cmp .ogt (n : EReal) 0 = BitVec.ofBool (decide (0 < n)) := by
    unfold Ideal.cmp
    congr 1
    refine decide_eq_decide.mpr ?_
    rw [← EReal.coe_natCast, EReal.coe_pos, Nat.cast_pos]
  rw [hc]
  rcases Nat.eq_zero_or_pos n with rfl | hpos
  · rfl
  · -- for a positive count both maxima are the count
    have h1 : (1 : ℤ) ≤ n := by exact_mod_cast hpos
    have hm : max (n : EReal) 1 = (((max (n : ℤ) 1 : ℤ) : ℝ) : EReal) := by
      rw [max_eq_left h1, Int.cast_natCast, EReal.coe_natCast]
      refine max_eq_left ?_
      rw [← EReal.coe_natCast, ← EReal.coe_one, EReal.coe_le_coe_iff]
      exact_mod_cast hpos
    rw [hm]

/-! ## The statement -/

/-- THE TWO CLOSING STRETCHES AGREE: on the kernel's two result arrays (each row's loss and float count) and on the
    reference's loss matrix, the mean of the strictly positive losses comes out the same extended real. -/
theorem tails_eq (hr1 : Tri.SNx1.ReducesTo [0, 1] Tri.S0) (h0 : 0 < Tri.S0.numel)
    (hb : Tri.S0.BroadcastsInDim Tri.SNxN (![] : Fin 0 → Fin Tri.SNxN.rank)) (hr2 : Tri.SNxN.ReducesTo [0, 1] Tri.S0)
    (hlt : 1 < 32) :
    Tri.kerTail hr1 h0 (Tri.rowSumV e lab) (Tri.rowCntV e lab) = Tri.refTail hb hr2 h0 hlt (Tri.lossM e lab) := by
  funext j
  rw [kerTail_apply, refTail_apply, hostSum_all, hostSum_all, hostSum_all, sum_rowSumV, sum_rowCntV, sum_lossM, refCount]
  exact tail_words _ _ (lt_of_le_of_lt (posCount_le e lab) (by norm_num))

end Tri

end
-- ==== Proof.lean ====
/-
  Batch-all triplet loss over 8192 embeddings of 256 coordinates with integer labels: the tiled kernel against the
  whole-matrix reference, over the extended reals.

  Both programs normalise each row of the embeddings by the larger of its Euclidean norm and 1e-12 (the same eleven host
  operations, kept as one function).  With `e` the normalised rows: the cosine distance `dist r b = max 0 (1 - ⟨e r, e b⟩)`;
  the closest negative of an anchor `hardest r = min over b of (dist r b where the labels differ, else 1e9)`, from +∞; the
  loss of a pair `max (dist r b - hardest r + 1) 0` where the labels agree and `r ≠ b`, else `0`; the result is the mean of
  the strictly positive losses, `0` if there is none.

  The kernel walks 64 tiles of 128 anchors, each against all 8192 rows (one matrix product per tile, contracted over the
  256 coordinates), and writes per anchor the row's sum of losses and its count of positive ones as a float; the host then
  adds the 8192 sums, adds the counts, and divides.  The reference forms the 8192 by 8192 matrix at once, adds all of it,
  and counts the positive entries in 32-bit integers.  At the extended reals a sum of sums is the sum over all pairs (only
  commutativity and associativity of addition are used, so no finiteness is needed), and a count of at most 2^26 entries
  neither wraps as a 32-bit integer nor differs from the float sum of as many ones; so the two closing stretches agree.

  The frames: the kernel's program hands the normalised matrix to the region through two windows, a moving tile and the
  whole matrix, so the array is held at half the share by each; the run is the launch for windows that share arrays.  The
  reference's frame is its run with the result dropped.  The idealization rewrote nothing, so `preserves` is trivial.
-/
import proofs.«144402_j40114994544729_1_alg».proof.Defs
import proofs.«144402_j40114994544729_1_alg».proof.Proof.Gen.Kernel
import proofs.«144402_j40114994544729_1_alg».proof.Proof.Gen.KernelIdeal
import proofs.«144402_j40114994544729_1_alg».proof.Proof.Gen.ReferenceIdeal
import proofs.«144402_j40114994544729_1_alg».proof.Proof.Gen.Pre_finite_inputs
import proofs.«144402_j40114994544729_1_alg».proof.Proof.FrameB3
import proofs.«144402_j40114994544729_1_alg».proof.Proof.FrameI3
import proofs.«144402_j40114994544729_1_alg».proof.Proof.RefRun
import proofs.«144402_j40114994544729_1_alg».proof.Proof.KerValue
import proofs.«144402_j40114994544729_1_alg».proof.Proof.RefValue
import proofs.«144402_j40114994544729_1_alg».proof.Proof.SpecAlg
import Idealize.ShloMosaic.Adequacy
import Idealize.ShloMosaic.Init

noncomputable section

namespace Cert.Proof

open Idealize.ShloMosaic Idealize.SL.Sem

/-- The kernel's program at the word-level values runs to the end and leaves its two arguments as they were. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end at the mean of the positive losses: the kernel's run
    names its result as the closing stretch over the per-row sums and counts, the reference's as the closing stretch
    over the loss matrix, and the two closing stretches agree. -/
theorem algebraic : Cert.algebraic_KernelIdeal_ReferenceIdeal := by
  intro m ρ m' ρ' _ hagree
  refine ⟨_, (θ_run (Cert.KernelIdeal.defs (F := Ideal)) _ _).mono
      (fun _ h c => ⟨(h c).1.trans (Cert.KernelIdeal.KerValue.out_eq m c), (h c).2⟩)
      (Cert.KernelIdeal.Fr.run_args (F := Ideal) m ρ), ?_⟩
  refine (θ_run (Cert.ReferenceIdeal.defs (F := Ideal)) _ _).mono (fun _ h c => ⟨(h c).1.trans ?_, (h c).2⟩)
    (Cert.ReferenceIdeal.ValueP.run (F := Ideal) m' ρ')
  refine (Cert.ReferenceIdeal.RefValue.res_eq m' c).trans ?_
  rw [(hagree c).1, (hagree c).2]
  exact (Tri.tails_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
